-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S2048x8192 : Shape := ⟨2, ![2048, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_

variable [Facts]

def fn {F : FTy → Type} [FloatOps F] (main_arg0 : FVec F S4096x8192 .f32) (main_arg1 : FVec F S2048x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  main_v8
-- ==== Kernel.lean ====
abbrev S4096x8192 : Shape := ⟨2, ![4096, 8192]⟩
abbrev S2048x8192 : Shape := ⟨2, ![2048, 8192]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩
abbrev S2048x256 : Shape := ⟨2, ![2048, 256]⟩
abbrev S1024x256 : Shape := ⟨2, ![1024, 256]⟩
abbrev S2048x1024 : Shape := ⟨2, ![2048, 1024]⟩
abbrev S256x1024 : Shape := ⟨2, ![256, 1024]⟩

abbrev nBuf : Space → Nat
  | .hbm => 12
  | .vmem => 14
  | .smem => 0
  | _ => 0

abbrev bufTy : (tb : Table) → Fin (tcTables nBuf tb) → BufTy
  | .hbm, ⟨0, _⟩ => ⟨S4096x8192, .f32⟩
  | .hbm, ⟨1, _⟩ => ⟨S2048x8192, .f32⟩
  | .hbm, ⟨2, _⟩ => ⟨S_, .f32⟩
  | .hbm, ⟨3, _⟩ => ⟨S2048, .f32⟩
  | .hbm, ⟨4, _⟩ => ⟨S2048x1, .f32⟩
  | .hbm, ⟨5, _⟩ => ⟨S_, .f32⟩
  | .hbm, ⟨6, _⟩ => ⟨S2048x1, .f32⟩
  | .hbm, ⟨7, _⟩ => ⟨S2048x1, .f32⟩
  | .hbm, ⟨8, _⟩ => ⟨S2048x8192, .f32⟩
  | .hbm, ⟨9, _⟩ => ⟨S2048x8192, .f32⟩
  | .hbm, ⟨10, _⟩ => ⟨S2048x4096, .bf16⟩
  | .hbm, ⟨11, _⟩ => ⟨S2048x8192, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | .local _ .vmem, ⟨7, _⟩ => ⟨S2048x256, .bf16⟩
  | .local _ .vmem, ⟨8, _⟩ => ⟨S2048x256, .bf16⟩
  | .local _ .vmem, ⟨9, _⟩ => ⟨S256x1024, .f32⟩
  | .local _ .vmem, ⟨10, _⟩ => ⟨S256x1024, .f32⟩
  | .local _ .vmem, ⟨11, _⟩ => ⟨S2048x1024, .f32⟩
  | .local _ .vmem, ⟨12, _⟩ => ⟨S2048x1024, .f32⟩
  | .local _ .vmem, ⟨13, _⟩ => ⟨S2048x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v14 : BitVec 1 := Scalar.cmpi .eq arg1 c31_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  reducesTo_S2048x8192_S2048_d1 : S2048x8192.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x8192_0_1 : S2048x1.BroadcastsInDim S2048x8192 (![0, 1] : Fin 2 → Fin S2048x8192.rank)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  packedbf16_S2048x1024_S2048x1024_0_0 : (Rect.unit (s := S2048x1024) ![0, 0] S2048x1024.size inb_S2048x1024_S2048x1024_0_0).PackedRows (EltTy.packing .bf16)
  inb_S256x1024_S256x1024_0_0 : ∀ a, (![0, 0] : Fin 2 → Nat) a + S256x1024.size a ≤ S256x1024.size a
  h_S256x1024 : 0 < S256x1024.numel
  dot_S2048x256_S1024x256_S2048x1024_1_1_0_0_n_n_wf : DotDims.WF S2048x256 S1024x256 S2048x1024 [1] [1] [0] [0] [] []
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S2048x8192.size a
  hwx0_0 : ∀ i : grid0.Coords, EltTy.bits .f32 = 32 ∨ (Rect.block (s := S2048x8192) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x8192.size a
  hwx0_1 : ∀ i : grid0.Coords, EltTy.bits .f32 = 32 ∨ (Rect.block (s := S4096x8192) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x4096.size a
  hwx0_2 : ∀ i : grid0.Coords, EltTy.bits .bf16 = 32 ∨ (Rect.block (s := S2048x4096) S2048x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S2048x4096.size a
  hwx1_0 : ∀ i : grid1.Coords, EltTy.bits .bf16 = 32 ∨ (Rect.block (s := S2048x4096) S2048x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S4096x8192.size a
  hwx1_1 : ∀ i : grid1.Coords, EltTy.bits .f32 = 32 ∨ (Rect.block (s := S4096x8192) S256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S2048x8192.size a
  hwx1_2 : ∀ i : grid1.Coords, EltTy.bits .f32 = 32 ∨ (Rect.block (s := S2048x8192) S2048x1024.size (cc1_transform_2 i) (hinb1_2 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf
def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_v5) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v6) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2048x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4096x8192 : Shape := ⟨2, ![4096, 8192]⟩
abbrev S2048x8192 : Shape := ⟨2, ![2048, 8192]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S2048x8192, .f32⟩
  | .hbm, ⟨2, _⟩ => ⟨S_, .f32⟩
  | .hbm, ⟨3, _⟩ => ⟨S2048, .f32⟩
  | .hbm, ⟨4, _⟩ => ⟨S2048x1, .f32⟩
  | .hbm, ⟨5, _⟩ => ⟨S_, .f32⟩
  | .hbm, ⟨6, _⟩ => ⟨S2048x1, .f32⟩
  | .hbm, ⟨7, _⟩ => ⟨S2048x1, .f32⟩
  | .hbm, ⟨8, _⟩ => ⟨S2048x8192, .f32⟩
  | .hbm, ⟨9, _⟩ => ⟨S2048x8192, .f32⟩
  | .hbm, ⟨10, _⟩ => ⟨S2048x4096, .f32⟩
  | .hbm, ⟨11, _⟩ => ⟨S2048x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  reducesTo_S2048x8192_S2048_d1 : S2048x8192.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x8192_0_1 : S2048x1.BroadcastsInDim S2048x8192 (![0, 1] : Fin 2 → Fin S2048x8192.rank)
  dot_S2048x8192_S4096x8192_S2048x4096_1_1_0_0_n_n_wf : DotDims.WF S2048x8192 S4096x8192 S2048x4096 [1] [1] [0] [0] [] []
  dot_S2048x4096_S4096x8192_S2048x8192_1_0_0_1_n_n_wf : DotDims.WF S2048x4096 S4096x8192 S2048x8192 [1] [0] [0] [1] [] []

variable [Facts₀]

def dot_S2048x8192_S4096x8192_S2048x4096_1_1_0_0_n_n : DotDims S2048x8192 S4096x8192 S2048x4096 where
  lhsContracting := [1]
  rhsContracting := [1]
  lhsNonContracting := [0]
  rhsNonContracting := [0]
  lhsBatch := []
  rhsBatch := []
  wf := dot_S2048x8192_S4096x8192_S2048x4096_1_1_0_0_n_n_wf
def dot_S2048x4096_S4096x8192_S2048x8192_1_0_0_1_n_n : DotDims S2048x4096 S4096x8192 S2048x8192 where
  lhsContracting := [1]
  rhsContracting := [0]
  lhsNonContracting := [0]
  rhsNonContracting := [1]
  lhsBatch := []
  rhsBatch := []
  wf := dot_S2048x4096_S4096x8192_S2048x8192_1_0_0_1_n_n_wf

class Facts : Prop extends Facts₀ where

variable [Facts]
-- ==== Proof.KB.Scoped0.lean ====
/-
  What is particular to the first matmul call: its accumulator (a scratch buffer of the kernel's own), the core's
  other scoped buffers, which its body never touches, and what its last stretch writes into the output block,
  the accumulator narrowed to bf16.
-/
import proofs.«124379_j76613626626565_1_alg».proof.Proof.Gen.Kernel.Launch
import proofs.«124379_j76613626626565_1_alg».proof.Proof.Gen.Kernel.Skeleton
import proofs.«124379_j76613626626565_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store of both bodies are zero: each moves a whole buffer. -/
theorem hz2 : (![0, 0] : Fin 2 → Nat) = fun _ => 0 := by funext a; fin_cases a <;> rfl

/-- A store of a whole 2048 × 1024 f32 buffer, last, covers every index of it, whatever was stored before. -/
theorem cover_acc (w : Vec F S2048x1024 .f32) (L : List (View.Piece (Elt F) S2048x1024 .f32)) (y : S2048x1024.Idx) :
    ∃ pc ∈ ((⟨Rect.unit (s := S2048x1024) ![0, 0] S2048x1024.size inb_S2048x1024_S2048x1024_0_0, w⟩ : View.Piece (Elt F) S2048x1024 .f32) :: L), y ∈ pc.1.set :=
  ⟨_, List.Mem.head _, View.mem_set_unit_zero (S := S2048x1024) hz2 inb_S2048x1024_S2048x1024_0_0 y⟩

/-- The accumulator: a whole scoped buffer. -/
abbrev scM0 : Memref sig .tc .vmem S2048x1024 .f32 := Memref.whole cc0_scratch0

/-- The core's other scoped buffers (the second call's staging buffers and accumulator), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the call's invariant holds when nothing is tracked: the accumulator at some contents, the other scoped
    buffers, the generator register. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA rest0; rw [scopedRest0_eq]; simp only [scM0, owns_whole]; try rfl

/-- What the last stretch of a row writes into the output block: the accumulator narrowed to bf16. -/
def outPay0 (s : Vec F S2048x1024 .f32) : Vec F S2048x1024 .bf16 := k0_pay3 s

/-- A store of the whole output block covers it. -/
theorem cover_out0 (w : Vec F S2048x1024 .bf16) (L : List (View.Piece (Elt F) S2048x1024 .bf16)) (y : S2048x1024.Idx) :
    ∃ pc ∈ ((⟨Rect.unit (s := S2048x1024) ![0, 0] S2048x1024.size inb_S2048x1024_S2048x1024_0_0, w⟩ : View.Piece (Elt F) S2048x1024 .bf16) :: L), y ∈ pc.1.set :=
  ⟨_, List.Mem.head _, View.mem_set_unit_zero (S := S2048x1024) hz2 inb_S2048x1024_S2048x1024_0_0 y⟩

end Cert.Kernel.Hand

end
-- ==== Proof.KB.Region0.lean ====
/-
  A matmul call, point by point, at any float instance and at any contents `V` the call is entered from.
  The grid is 4 × 32: the first coordinate picks a block of 1024 columns of the product, the second, `k`, a stretch
  of 256 contracted positions. The body keeps a 2048 × 1024 accumulator in a scratch buffer: at `k = 0` it overwrites
  it with zeros, at every point it adds the product of the point's two blocks into it, and at `k = 31` it writes the
  accumulator out (`outPay0`) into the output block, which is written back to the array only there. So after point
  `n` the scratch holds the sum of the products of the points of the current row of the grid up to `n`: `acc0`,
  a recursion on the point that restarts where `n % 32 = 0`.
-/
import proofs.«124379_j76613626626565_1_alg».proof.Proof.KB.Scoped0
import proofs.«124379_j76613626626565_1_alg».proof.Proof.Gen.Kernel.Launch
import proofs.«124379_j76613626626565_1_alg».proof.Proof.Gen.Kernel.Skeleton
import proofs.«124379_j76613626626565_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks the body is handed -/

/-- Window `w`'s block at point `t`, read off the array the call finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's block at point `t`: all 2048 rows, the point's 256 contracted positions. -/
abbrev lhs0 (c : Dev nD) (t : Fin cfg0.N) : Vec F S2048x256 .f32 := iblk0 V c 0 t
/-- The right factor's block at point `t`: the block of `x` that meets it. -/
abbrev rhs0 (c : Dev nD) (t : Fin cfg0.N) : Vec F S1024x256 .f32 := iblk0 V c 1 t

/-- An input window's staging buffer holds its block at every point (both inputs are fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, in closed form over the grid -/

/-- `k = 0`: the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)
/-- `k = 31`: the accumulator is written out. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-- The inputs are live at every point; the output is live exactly where it is written, and is not written back elsewhere. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
/-! ## The body's three cases -/

set_option maxHeartbeats 1000000 in
/-- `k = 0` (and not the last stretch): the accumulator, whatever it held, ends at the point's product added to zeros;
    the output block is not touched. -/
theorem kernel0_first (c : Dev nD) (E : Set ℕ) (i : grid0.Coords)
    (arg2 : Memref sig .tc .vmem S2048x256 .f32) (harg2 : arg2.IsWhole) (arg3 : Memref sig .tc .vmem S1024x256 .f32) (harg3 : arg3.IsWhole)
    (arg4 : Memref sig .tc .vmem S2048x1024 .bf16) (harg4 : arg4.IsWhole) (arg5 : Memref sig .tc .vmem S2048x1024 .f32) (harg5 : arg5.IsWhole)
    (hc0 : cond0_0 i) (hc1 : ¬cond0_1 i)
    (x0 : Vec F S2048x256 .f32) (x1 : Vec F S1024x256 .f32) (d : Vec F S2048x1024 .bf16) (K : PUnit → sProp 𝕄) :
    iprop(owns (c : Thread nD τ) arg2 fullShare x0 ∗ owns (c : Thread nD τ) arg3 fullShare x1 ∗ owns (c : Thread nD τ) arg4 fullShare d
        ∗ (∃ s, owns (c : Thread nD τ) arg5 fullShare s)
        ∗ (iprop(owns (c : Thread nD τ) arg2 fullShare x0 ∗ owns (c : Thread nD τ) arg3 fullShare x1 ∗ owns (c : Thread nD τ) arg4 fullShare d
            ∗ owns (c : Thread nD τ) arg5 fullShare (k0_pay2 x0 x1 (k0_pay1 (F := F)))) -∗ K ⟨⟩))
      ⊢ wp frame (wpE (defs₀ (F := F)) Variants.none c none) E (cc0__mm1_kernel i arg2 harg2 arg3 harg3 arg4 harg4 arg5 harg5) K := by
  simp only [cc0__mm1_kernel_eq_skeleton]; unfold cc0__mm1_kernel_skel
  unfold owns
  iintro ⟨⟨%f0, %hf0, H0⟩, ⟨%f1, %hf1, H1⟩, ⟨%f4, %hf4, H4⟩, ⟨%s, %f5, -, H5⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact hf4
    iexact H4
  iexists _; isplitr
  swap; · iexact H5
  ipureintro
  sl_unfold_words
  rw [View.read_writes_eq_canon _ _ _ (cover_acc _ _), View.canon_cons_unit_zero hz2]
  simp only [View.readAt_eq_ld, harg2.read_unread, harg3.read_unread, View.ld_unit_zero (S := S2048x256) hz2, View.ld_unit_zero (S := S1024x256) hz2, View.ld_unit_zero (S := S2048x1024) hz2, View.readCov_unit_zero (S := S2048x1024) _ hz2]

set_option maxHeartbeats 1000000 in
/-- `0 < k < 31`: the point's product is added to what the accumulator held; the output block is not touched. -/
theorem kernel0_mid (c : Dev nD) (E : Set ℕ) (i : grid0.Coords)
    (arg2 : Memref sig .tc .vmem S2048x256 .f32) (harg2 : arg2.IsWhole) (arg3 : Memref sig .tc .vmem S1024x256 .f32) (harg3 : arg3.IsWhole)
    (arg4 : Memref sig .tc .vmem S2048x1024 .bf16) (harg4 : arg4.IsWhole) (arg5 : Memref sig .tc .vmem S2048x1024 .f32) (harg5 : arg5.IsWhole)
    (hc0 : ¬cond0_0 i) (hc1 : ¬cond0_1 i)
    (x0 : Vec F S2048x256 .f32) (x1 : Vec F S1024x256 .f32) (d : Vec F S2048x1024 .bf16) (s : Vec F S2048x1024 .f32) (K : PUnit → sProp 𝕄) :
    iprop(owns (c : Thread nD τ) arg2 fullShare x0 ∗ owns (c : Thread nD τ) arg3 fullShare x1 ∗ owns (c : Thread nD τ) arg4 fullShare d
        ∗ owns (c : Thread nD τ) arg5 fullShare s
        ∗ (iprop(owns (c : Thread nD τ) arg2 fullShare x0 ∗ owns (c : Thread nD τ) arg3 fullShare x1 ∗ owns (c : Thread nD τ) arg4 fullShare d
            ∗ owns (c : Thread nD τ) arg5 fullShare (k0_pay2 x0 x1 s)) -∗ K ⟨⟩))
      ⊢ wp frame (wpE (defs₀ (F := F)) Variants.none c none) E (cc0__mm1_kernel i arg2 harg2 arg3 harg3 arg4 harg4 arg5 harg5) K := by
  simp only [cc0__mm1_kernel_eq_skeleton]; unfold cc0__mm1_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact hf4
    iexact H4
  iexists _; isplitr
  swap; · iexact H5
  ipureintro
  sl_unfold_words
  rw [View.read_writes_eq_canon _ _ _ (cover_acc _ _), View.canon_unit_zero hz2]
  simp only [View.readAt_eq_ld, harg2.read_unread, harg3.read_unread, View.ld_unit_zero (S := S2048x256) hz2, View.ld_unit_zero (S := S1024x256) hz2, View.ld_unit_zero (S := S2048x1024) hz2, harg5.read_unread]

set_option maxHeartbeats 1000000 in
/-- `k = 31`: the point's product is added, and the accumulator is written out over the output block. -/
theorem kernel0_last (c : Dev nD) (E : Set ℕ) (i : grid0.Coords)
    (arg2 : Memref sig .tc .vmem S2048x256 .f32) (harg2 : arg2.IsWhole) (arg3 : Memref sig .tc .vmem S1024x256 .f32) (harg3 : arg3.IsWhole)
    (arg4 : Memref sig .tc .vmem S2048x1024 .bf16) (harg4 : arg4.IsWhole) (arg5 : Memref sig .tc .vmem S2048x1024 .f32) (harg5 : arg5.IsWhole)
    (hc0 : ¬cond0_0 i) (hc1 : cond0_1 i)
    (x0 : Vec F S2048x256 .f32) (x1 : Vec F S1024x256 .f32) (s : Vec F S2048x1024 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (outPay0 (k0_pay2 x0 x1 s))
            ∗ owns (c : Thread nD τ) arg5 fullShare (k0_pay2 x0 x1 s)) -∗ K ⟨⟩))
      ⊢ wp frame (wpE (defs₀ (F := F)) Variants.none c none) E (cc0__mm1_kernel i arg2 harg2 arg3 harg3 arg4 harg4 arg5 harg5) K := by
  simp only [cc0__mm1_kernel_eq_skeleton]; unfold cc0__mm1_kernel_skel
  unfold owns
  iintro ⟨⟨%f0, %hf0, H0⟩, ⟨%f1, %hf1, H1⟩, ⟨%d, %f4, -, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_eq_canon _ _ _ (cover_out0 _ _), View.canon_unit_zero hz2]
    simp only [outPay0, View.readAt_eq_ld, harg2.read_unread, harg3.read_unread, View.ld_unit_zero (S := S2048x256) hz2, View.ld_unit_zero (S := S1024x256) hz2, View.ld_unit_zero (S := S2048x1024) hz2, harg5.read_unread, View.readCov_unit_zero (S := S2048x1024) _ hz2]
  iexists _; isplitr
  swap; · iexact H5
  ipureintro
  sl_unfold_words
  rw [View.read_writes_eq_canon _ _ _ (cover_acc _ _), View.canon_unit_zero hz2]
  simp only [View.readAt_eq_ld, harg2.read_unread, harg3.read_unread, View.ld_unit_zero (S := S2048x256) hz2, View.ld_unit_zero (S := S1024x256) hz2, View.ld_unit_zero (S := S2048x1024) hz2, harg5.read_unread]

/-! ## What the accumulator holds after each point -/

/-- The accumulator after the body at position `n`: the point's product added to zeros where a row of the grid
    begins (`n % 32 = 0`), to what the point before left elsewhere. -/
def acc0 (c : Dev nD) : (n : ℕ) → n < cfg0.N → Vec F S2048x1024 .f32
  | 0, hn => k0_pay2 (lhs0 V c ⟨0, hn⟩) (rhs0 V c ⟨0, hn⟩) (k0_pay1 (F := F))
  | n + 1, hn =>
    if (n + 1) % 32 = 0 then k0_pay2 (lhs0 V c ⟨n + 1, hn⟩) (rhs0 V c ⟨n + 1, hn⟩) (k0_pay1 (F := F))
    else k0_pay2 (lhs0 V c ⟨n + 1, hn⟩) (rhs0 V c ⟨n + 1, hn⟩) (acc0 c n (Nat.lt_of_succ_lt hn))

theorem acc0_first (c : Dev nD) (t : Fin cfg0.N) (h0 : t.val % 32 = 0) :
    acc0 V c t.val t.isLt = k0_pay2 (lhs0 V c t) (rhs0 V c t) (k0_pay1 (F := F)) := by
  obtain ⟨n, hn⟩ := t
  cases n with
  | zero => rfl
  | succ n => exact if_pos h0
theorem acc0_next (c : Dev nD) (t : Fin cfg0.N) (h0 : ¬t.val % 32 = 0) :
    acc0 V c t.val t.isLt = k0_pay2 (lhs0 V c t) (rhs0 V c t) (acc0 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The call's invariant before position `n`: before the first point nothing is tracked; afterwards the accumulator
    is held at what the point before left in it. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (acc0 V c n hn) ∗ rest0 c) ∗ (∃ r, prngReg c r)) := rfl
theorem PhiS0_pos (c : Dev nD) (n : ℕ) (h : n ≤ cfg0.N) (hz : n ≠ 0) :
    PhiS0 V c n h = iprop((owns (c : Thread nD τ) scM0 fullShare (acc0 V c (n - 1) (by omega)) ∗ rest0 c) ∗ (∃ r, prngReg c r)) := by
  cases n with
  | zero => exact absurd rfl hz
  | succ n => rfl

/-! ## The call's proof data -/

/-- After the body at point `t`: the inputs' buffers at their blocks, the output's at what the accumulator is
    written out as (consulted only where the block is written, `k = 31`); the invariant tracks the accumulator; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outPay0 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outPay0 (acc0 V c t.val t.isLt) := by dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point, by the case its position in the row selects. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 32 = 31
  · -- the last stretch of the row: the accumulator is written out
    have h0 : ¬t.val % 32 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [acc0_next V c t h0, PhiS0_castSucc V c t, PhiS0_pos V c _ _ hz]
    iintro ⟨⟨⟨HS, Hr⟩, Hg⟩, Ho, ⟨%d0, H0⟩, ⟨%d1, H1⟩, ⟨%d2, H2⟩⟩
    iapply (kernel0_last c Set.univ (grid0.coords t) _ _ _ _ _ _ _ _ (fun h => h0 ((hcond0_0 t).mp h)) ((hcond0_1 t).mpr h1) (lhs0 V c t) (rhs0 V c t) _ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · -- elsewhere the output block is neither stored into nor written back
    rw [Dat.leavesExact_idle (dat0 V c) 2 t (idleAt0_2 t (fun h => h1 ((hcond0_1 t).mp h))) (noFlush0_2 t (fun h => h1 ((hcond0_1 t).mp h)))]
    by_cases h0 : t.val % 32 = 0
    · -- a row of the grid begins: the accumulator restarts from zeros
      rw [acc0_first V c t h0]
      by_cases hz : t.val = 0
      · rw [PhiS0_castSucc V c t, PhiS0_zero V c _ _ hz, PhiA0_eq]
        iintro ⟨⟨⟨HS, Hr⟩, Hg⟩, Ho, ⟨%d0, H0⟩, ⟨%d1, H1⟩, ⟨%d2, H2⟩⟩
        iapply (kernel0_first c Set.univ (grid0.coords t) _ _ _ _ _ _ _ _ ((hcond0_0 t).mpr h0) (fun h => h1 ((hcond0_1 t).mp h)) (lhs0 V c t) (rhs0 V c t) _ _)
        isplitl [H0]; · iexact H0
        isplitl [H1]; · iexact H1
        isplitl [H2]; · iexact H2
        isplitl [HS]; · iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS, Hr⟩, Hg⟩, Ho, ⟨%d0, H0⟩, ⟨%d1, H1⟩, ⟨%d2, H2⟩⟩
        iapply (kernel0_first c Set.univ (grid0.coords t) _ _ _ _ _ _ _ _ ((hcond0_0 t).mpr h0) (fun h => h1 ((hcond0_1 t).mp h)) (lhs0 V c t) (rhs0 V c t) _ _)
        isplitl [H0]; · iexact H0
        isplitl [H1]; · iexact H1
        isplitl [H2]; · iexact H2
        isplitl [HS]; · iexists _; iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
    · -- inside a row: the point's product is added to what the point before left
      have hz : t.val ≠ 0 := fun h => h0 (by rw [h])
      rw [acc0_next V c t h0, PhiS0_castSucc V c t, PhiS0_pos V c _ _ hz]
      iintro ⟨⟨⟨HS, Hr⟩, Hg⟩, Ho, ⟨%d0, H0⟩, ⟨%d1, H1⟩, ⟨%d2, H2⟩⟩
      iapply (kernel0_mid c Set.univ (grid0.coords t) _ _ _ _ _ _ _ _ (fun h => h0 ((hcond0_0 t).mp h)) (fun h => h1 ((hcond0_1 t).mp h)) (lhs0 V c t) (rhs0 V c t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- Entering the call nothing is tracked; leaving it the accumulator's contents are forgotten again. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
theorem hout0 (c : Dev nD) : (dat0 V c).Φ (Fin.last cfg0.N) ⊢ Pipeline.ΦA spec0 c := by
  rw [show (dat0 V c).Φ (Fin.last cfg0.N) = PhiS0 V c cfg0.N (Nat.le_refl _) from rfl,
    PhiS0_pos V c _ _ (by have : cfg0.N = 128 := N_0; omega), PhiA0_eq]
  iintro ⟨⟨HS, Hr⟩, Hg⟩
  isplitl [HS Hr]
  · isplitl [HS]
    · iexists _; iexact HS
    iexact Hr
  iexact Hg

end Cert.Kernel.Hand

end
-- ==== Proof.KB.Scoped1.lean ====
/-
  What is particular to the second matmul call: its accumulator, the core's other scoped buffers — among which the
  printed list puts this call's accumulator last, so it is brought to the front here —, and what its last stretch
  writes into the output block: the accumulator itself.
-/
import proofs.«124379_j76613626626565_1_alg».proof.Proof.Gen.Kernel.Launch
import proofs.«124379_j76613626626565_1_alg».proof.Proof.Gen.Kernel.Skeleton
import proofs.«124379_j76613626626565_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import proofs.«124379_j76613626626565_1_alg».proof.Proof.KB.Scoped0
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator: a whole scoped buffer. -/
abbrev scM1 : Memref sig .tc .vmem S2048x1024 .f32 := Memref.whole cc1_scratch0

/-- The core's other scoped buffers (the first call's staging buffers and accumulator), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- What the call's invariant holds when nothing is tracked: the accumulator at some contents, the other scoped
    buffers, the generator register. The same separating conjunction as the printed list, reordered. -/
theorem PhiA1_eq (c : Dev nD) :
    (Pipeline.ΦA spec1 c : sProp 𝕄)
      = iprop(((∃ d, owns (c : Thread nD τ) scM1 fullShare d) ∗ rest1 c) ∗ (∃ r, prngReg c r)) := by
  unfold Pipeline.ΦA rest1; rw [scopedRest1_eq]; simp only [scM1, owns_whole]
  refine Entails.antisymm (?_ : (_ : sProp 𝕄) ⊢ _) (?_ : (_ : sProp 𝕄) ⊢ _)
  · iintro ⟨⟨B1, B2, B3, B4, B5, B6, B7, HS⟩, Hg⟩
    isplitl [B1 B2 B3 B4 B5 B6 B7 HS]
    · isplitl [HS]; · iexact HS
      isplitl [B1]; · iexact B1
      isplitl [B2]; · iexact B2
      isplitl [B3]; · iexact B3
      isplitl [B4]; · iexact B4
      isplitl [B5]; · iexact B5
      isplitl [B6]; · iexact B6
      iexact B7
    iexact Hg
  · iintro ⟨⟨HS, B1, B2, B3, B4, B5, B6, B7⟩, Hg⟩
    isplitl [B1 B2 B3 B4 B5 B6 B7 HS]
    · isplitl [B1]; · iexact B1
      isplitl [B2]; · iexact B2
      isplitl [B3]; · iexact B3
      isplitl [B4]; · iexact B4
      isplitl [B5]; · iexact B5
      isplitl [B6]; · iexact B6
      isplitl [B7]; · iexact B7
      iexact HS
    iexact Hg

/-- What the last stretch of a row writes into the output block: the accumulator as it stands. -/
def outPay1 (s : Vec F S2048x1024 .f32) : Vec F S2048x1024 .f32 := s

/-- A store of the whole output block covers it. -/
theorem cover_out1 (w : Vec F S2048x1024 .f32) (L : List (View.Piece (Elt F) S2048x1024 .f32)) (y : S2048x1024.Idx) :
    ∃ pc ∈ ((⟨Rect.unit (s := S2048x1024) ![0, 0] S2048x1024.size inb_S2048x1024_S2048x1024_0_0, w⟩ : View.Piece (Elt F) S2048x1024 .f32) :: L), y ∈ pc.1.set :=
  cover_acc w L y

end Cert.Kernel.Hand

end
-- ==== Proof.KB.Region1.lean ====
/-
  A matmul call, point by point, at any float instance and at any contents `V` the call is entered from.
  The grid is 8 × 16: the first coordinate picks a block of 1024 columns of the product, the second, `k`, a stretch
  of 256 contracted positions. The body keeps a 2048 × 1024 accumulator in a scratch buffer: at `k = 0` it overwrites
  it with zeros, at every point it adds the product of the point's two blocks into it, and at `k = 15` it writes the
  accumulator out (`outPay1`) into the output block, which is written back to the array only there. So after point
  `n` the scratch holds the sum of the products of the points of the current row of the grid up to `n`: `acc1`,
  a recursion on the point that restarts where `n % 16 = 0`.
-/
import proofs.«124379_j76613626626565_1_alg».proof.Proof.KB.Scoped1
import proofs.«124379_j76613626626565_1_alg».proof.Proof.Gen.Kernel.Launch
import proofs.«124379_j76613626626565_1_alg».proof.Proof.Gen.Kernel.Skeleton
import proofs.«124379_j76613626626565_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks the body is handed -/

/-- Window `w`'s block at point `t`, read off the array the call finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left factor's block at point `t`: all 2048 rows, the point's 256 contracted positions. -/
abbrev lhs1 (c : Dev nD) (t : Fin cfg1.N) : Vec F S2048x256 .bf16 := iblk1 V c 0 t
/-- The right factor's block at point `t`: the block of `x` that meets it. -/
abbrev rhs1 (c : Dev nD) (t : Fin cfg1.N) : Vec F S256x1024 .f32 := iblk1 V c 1 t

/-- An input window's staging buffer holds its block at every point (both inputs are fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, in closed form over the grid -/

/-- `k = 0`: the accumulator is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- `k = 15`: the accumulator is written out. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-- The inputs are live at every point; the output is live exactly where it is written, and is not written back elsewhere. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1024 .f32 := win1_2.stage (cfg1.slots t 2)
abbrev hs1_2 (t : Fin cfg1.N) : (ms1_2 t).IsWhole := hstage1_2 ((cfg1.slots t 2).cast nbuf1_2)
/-! ## The body's three cases -/

set_option maxHeartbeats 1000000 in
/-- `k = 0` (and not the last stretch): the accumulator, whatever it held, ends at the point's product added to zeros;
    the output block is not touched. -/
theorem kernel1_first (c : Dev nD) (E : Set ℕ) (i : grid1.Coords)
    (arg2 : Memref sig .tc .vmem S2048x256 .bf16) (harg2 : arg2.IsWhole) (arg3 : Memref sig .tc .vmem S256x1024 .f32) (harg3 : arg3.IsWhole)
    (arg4 : Memref sig .tc .vmem S2048x1024 .f32) (harg4 : arg4.IsWhole) (arg5 : Memref sig .tc .vmem S2048x1024 .f32) (harg5 : arg5.IsWhole)
    (hc0 : cond1_0 i) (hc1 : ¬cond1_1 i)
    (x0 : Vec F S2048x256 .bf16) (x1 : Vec F S256x1024 .f32) (d : Vec F S2048x1024 .f32) (K : PUnit → sProp 𝕄) :
    iprop(owns (c : Thread nD τ) arg2 fullShare x0 ∗ owns (c : Thread nD τ) arg3 fullShare x1 ∗ owns (c : Thread nD τ) arg4 fullShare d
        ∗ (∃ s, owns (c : Thread nD τ) arg5 fullShare s)
        ∗ (iprop(owns (c : Thread nD τ) arg2 fullShare x0 ∗ owns (c : Thread nD τ) arg3 fullShare x1 ∗ owns (c : Thread nD τ) arg4 fullShare d
            ∗ owns (c : Thread nD τ) arg5 fullShare (k1_pay2 x0 x1 (k1_pay1 (F := F)))) -∗ K ⟨⟩))
      ⊢ wp frame (wpE (defs₀ (F := F)) Variants.none c none) E (cc1__mm2_kernel i arg2 harg2 arg3 harg3 arg4 harg4 arg5 harg5) K := by
  simp only [cc1__mm2_kernel_eq_skeleton]; unfold cc1__mm2_kernel_skel
  unfold owns
  iintro ⟨⟨%f0, %hf0, H0⟩, ⟨%f1, %hf1, H1⟩, ⟨%f4, %hf4, H4⟩, ⟨%s, %f5, -, H5⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact hf4
    iexact H4
  iexists _; isplitr
  swap; · iexact H5
  ipureintro
  sl_unfold_words
  rw [View.read_writes_eq_canon _ _ _ (cover_acc _ _), View.canon_cons_unit_zero hz2]
  simp only [View.readAt_eq_ld, harg2.read_unread, harg3.read_unread, View.ld_unit_zero (S := S2048x256) hz2, View.ld_unit_zero (S := S256x1024) hz2, View.ld_unit_zero (S := S2048x1024) hz2, View.readCov_unit_zero (S := S2048x1024) _ hz2]

set_option maxHeartbeats 1000000 in
/-- `0 < k < 15`: the point's product is added to what the accumulator held; the output block is not touched. -/
theorem kernel1_mid (c : Dev nD) (E : Set ℕ) (i : grid1.Coords)
    (arg2 : Memref sig .tc .vmem S2048x256 .bf16) (harg2 : arg2.IsWhole) (arg3 : Memref sig .tc .vmem S256x1024 .f32) (harg3 : arg3.IsWhole)
    (arg4 : Memref sig .tc .vmem S2048x1024 .f32) (harg4 : arg4.IsWhole) (arg5 : Memref sig .tc .vmem S2048x1024 .f32) (harg5 : arg5.IsWhole)
    (hc0 : ¬cond1_0 i) (hc1 : ¬cond1_1 i)
    (x0 : Vec F S2048x256 .bf16) (x1 : Vec F S256x1024 .f32) (d : Vec F S2048x1024 .f32) (s : Vec F S2048x1024 .f32) (K : PUnit → sProp 𝕄) :
    iprop(owns (c : Thread nD τ) arg2 fullShare x0 ∗ owns (c : Thread nD τ) arg3 fullShare x1 ∗ owns (c : Thread nD τ) arg4 fullShare d
        ∗ owns (c : Thread nD τ) arg5 fullShare s
        ∗ (iprop(owns (c : Thread nD τ) arg2 fullShare x0 ∗ owns (c : Thread nD τ) arg3 fullShare x1 ∗ owns (c : Thread nD τ) arg4 fullShare d
            ∗ owns (c : Thread nD τ) arg5 fullShare (k1_pay2 x0 x1 s)) -∗ K ⟨⟩))
      ⊢ wp frame (wpE (defs₀ (F := F)) Variants.none c none) E (cc1__mm2_kernel i arg2 harg2 arg3 harg3 arg4 harg4 arg5 harg5) K := by
  simp only [cc1__mm2_kernel_eq_skeleton]; unfold cc1__mm2_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact hf4
    iexact H4
  iexists _; isplitr
  swap; · iexact H5
  ipureintro
  sl_unfold_words
  rw [View.read_writes_eq_canon _ _ _ (cover_acc _ _), View.canon_unit_zero hz2]
  simp only [View.readAt_eq_ld, harg2.read_unread, harg3.read_unread, View.ld_unit_zero (S := S2048x256) hz2, View.ld_unit_zero (S := S256x1024) hz2, View.ld_unit_zero (S := S2048x1024) hz2, harg5.read_unread]

set_option maxHeartbeats 1000000 in
/-- `k = 15`: the point's product is added, and the accumulator is written out over the output block. -/
theorem kernel1_last (c : Dev nD) (E : Set ℕ) (i : grid1.Coords)
    (arg2 : Memref sig .tc .vmem S2048x256 .bf16) (harg2 : arg2.IsWhole) (arg3 : Memref sig .tc .vmem S256x1024 .f32) (harg3 : arg3.IsWhole)
    (arg4 : Memref sig .tc .vmem S2048x1024 .f32) (harg4 : arg4.IsWhole) (arg5 : Memref sig .tc .vmem S2048x1024 .f32) (harg5 : arg5.IsWhole)
    (hc0 : ¬cond1_0 i) (hc1 : cond1_1 i)
    (x0 : Vec F S2048x256 .bf16) (x1 : Vec F S256x1024 .f32) (s : Vec F S2048x1024 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (outPay1 (k1_pay2 x0 x1 s))
            ∗ owns (c : Thread nD τ) arg5 fullShare (k1_pay2 x0 x1 s)) -∗ K ⟨⟩))
      ⊢ wp frame (wpE (defs₀ (F := F)) Variants.none c none) E (cc1__mm2_kernel i arg2 harg2 arg3 harg3 arg4 harg4 arg5 harg5) K := by
  simp only [cc1__mm2_kernel_eq_skeleton]; unfold cc1__mm2_kernel_skel
  unfold owns
  iintro ⟨⟨%f0, %hf0, H0⟩, ⟨%f1, %hf1, H1⟩, ⟨%d, %f4, -, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_eq_canon _ _ _ (cover_out1 _ _), View.canon_unit_zero hz2]
    simp only [outPay1, View.readAt_eq_ld, harg2.read_unread, harg3.read_unread, View.ld_unit_zero (S := S2048x256) hz2, View.ld_unit_zero (S := S256x1024) hz2, View.ld_unit_zero (S := S2048x1024) hz2, harg5.read_unread, View.readCov_unit_zero (S := S2048x1024) _ hz2]
  iexists _; isplitr
  swap; · iexact H5
  ipureintro
  sl_unfold_words
  rw [View.read_writes_eq_canon _ _ _ (cover_acc _ _), View.canon_unit_zero hz2]
  simp only [View.readAt_eq_ld, harg2.read_unread, harg3.read_unread, View.ld_unit_zero (S := S2048x256) hz2, View.ld_unit_zero (S := S256x1024) hz2, View.ld_unit_zero (S := S2048x1024) hz2, harg5.read_unread]

/-! ## What the accumulator holds after each point -/

/-- The accumulator after the body at position `n`: the point's product added to zeros where a row of the grid
    begins (`n % 16 = 0`), to what the point before left elsewhere. -/
def acc1 (c : Dev nD) : (n : ℕ) → n < cfg1.N → Vec F S2048x1024 .f32
  | 0, hn => k1_pay2 (lhs1 V c ⟨0, hn⟩) (rhs1 V c ⟨0, hn⟩) (k1_pay1 (F := F))
  | n + 1, hn =>
    if (n + 1) % 16 = 0 then k1_pay2 (lhs1 V c ⟨n + 1, hn⟩) (rhs1 V c ⟨n + 1, hn⟩) (k1_pay1 (F := F))
    else k1_pay2 (lhs1 V c ⟨n + 1, hn⟩) (rhs1 V c ⟨n + 1, hn⟩) (acc1 c n (Nat.lt_of_succ_lt hn))

theorem acc1_first (c : Dev nD) (t : Fin cfg1.N) (h0 : t.val % 16 = 0) :
    acc1 V c t.val t.isLt = k1_pay2 (lhs1 V c t) (rhs1 V c t) (k1_pay1 (F := F)) := by
  obtain ⟨n, hn⟩ := t
  cases n with
  | zero => rfl
  | succ n => exact if_pos h0
theorem acc1_next (c : Dev nD) (t : Fin cfg1.N) (h0 : ¬t.val % 16 = 0) :
    acc1 V c t.val t.isLt = k1_pay2 (lhs1 V c t) (rhs1 V c t) (acc1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The call's invariant before position `n`: before the first point nothing is tracked; afterwards the accumulator
    is held at what the point before left in it. -/
def PhiS1 (c : Dev nD) : (n : ℕ) → n ≤ cfg1.N → sProp 𝕄
  | 0, _ => Pipeline.ΦA spec1 c
  | n + 1, hn => iprop((owns (c : Thread nD τ) scM1 fullShare (acc1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (acc1 V c n hn) ∗ rest1 c) ∗ (∃ r, prngReg c r)) := rfl
theorem PhiS1_pos (c : Dev nD) (n : ℕ) (h : n ≤ cfg1.N) (hz : n ≠ 0) :
    PhiS1 V c n h = iprop((owns (c : Thread nD τ) scM1 fullShare (acc1 V c (n - 1) (by omega)) ∗ rest1 c) ∗ (∃ r, prngReg c r)) := by
  cases n with
  | zero => exact absurd rfl hz
  | succ n => rfl

/-! ## The call's proof data -/

/-- After the body at point `t`: the inputs' buffers at their blocks, the output's at what the accumulator is
    written out as (consulted only where the block is written, `k = 15`); the invariant tracks the accumulator; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outPay1 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outPay1 (acc1 V c t.val t.isLt) := by dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point, by the case its position in the row selects. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 16 = 15
  · -- the last stretch of the row: the accumulator is written out
    have h0 : ¬t.val % 16 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [acc1_next V c t h0, PhiS1_castSucc V c t, PhiS1_pos V c _ _ hz]
    iintro ⟨⟨⟨HS, Hr⟩, Hg⟩, Ho, ⟨%d0, H0⟩, ⟨%d1, H1⟩, ⟨%d2, H2⟩⟩
    iapply (kernel1_last c Set.univ (grid1.coords t) _ _ _ _ _ _ _ _ (fun h => h0 ((hcond1_0 t).mp h)) ((hcond1_1 t).mpr h1) (lhs1 V c t) (rhs1 V c t) _ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · -- elsewhere the output block is neither stored into nor written back
    rw [Dat.leavesExact_idle (dat1 V c) 2 t (idleAt1_2 t (fun h => h1 ((hcond1_1 t).mp h))) (noFlush1_2 t (fun h => h1 ((hcond1_1 t).mp h)))]
    by_cases h0 : t.val % 16 = 0
    · -- a row of the grid begins: the accumulator restarts from zeros
      rw [acc1_first V c t h0]
      by_cases hz : t.val = 0
      · rw [PhiS1_castSucc V c t, PhiS1_zero V c _ _ hz, PhiA1_eq]
        iintro ⟨⟨⟨HS, Hr⟩, Hg⟩, Ho, ⟨%d0, H0⟩, ⟨%d1, H1⟩, ⟨%d2, H2⟩⟩
        iapply (kernel1_first c Set.univ (grid1.coords t) _ _ _ _ _ _ _ _ ((hcond1_0 t).mpr h0) (fun h => h1 ((hcond1_1 t).mp h)) (lhs1 V c t) (rhs1 V c t) _ _)
        isplitl [H0]; · iexact H0
        isplitl [H1]; · iexact H1
        isplitl [H2]; · iexact H2
        isplitl [HS]; · iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS, Hr⟩, Hg⟩, Ho, ⟨%d0, H0⟩, ⟨%d1, H1⟩, ⟨%d2, H2⟩⟩
        iapply (kernel1_first c Set.univ (grid1.coords t) _ _ _ _ _ _ _ _ ((hcond1_0 t).mpr h0) (fun h => h1 ((hcond1_1 t).mp h)) (lhs1 V c t) (rhs1 V c t) _ _)
        isplitl [H0]; · iexact H0
        isplitl [H1]; · iexact H1
        isplitl [H2]; · iexact H2
        isplitl [HS]; · iexists _; iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
    · -- inside a row: the point's product is added to what the point before left
      have hz : t.val ≠ 0 := fun h => h0 (by rw [h])
      rw [acc1_next V c t h0, PhiS1_castSucc V c t, PhiS1_pos V c _ _ hz]
      iintro ⟨⟨⟨HS, Hr⟩, Hg⟩, Ho, ⟨%d0, H0⟩, ⟨%d1, H1⟩, ⟨%d2, H2⟩⟩
      iapply (kernel1_mid c Set.univ (grid1.coords t) _ _ _ _ _ _ _ _ (fun h => h0 ((hcond1_0 t).mp h)) (fun h => h1 ((hcond1_1 t).mp h)) (lhs1 V c t) (rhs1 V c t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- Entering the call nothing is tracked; leaving it the accumulator's contents are forgotten again. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
theorem hout1 (c : Dev nD) : (dat1 V c).Φ (Fin.last cfg1.N) ⊢ Pipeline.ΦA spec1 c := by
  rw [show (dat1 V c).Φ (Fin.last cfg1.N) = PhiS1 V c cfg1.N (Nat.le_refl _) from rfl,
    PhiS1_pos V c _ _ (by have : cfg1.N = 128 := N_1; omega), PhiA1_eq]
  iintro ⟨⟨HS, Hr⟩, Hg⟩
  isplitl [HS Hr]
  · isplitl [HS]
    · iexists _; iexact HS
    iexact Hr
  iexact Hg

end Cert.Kernel.Hand

end
-- ==== Proof.KB.Launch.lean ====
/-
  The whole program at any float instance: the host's centring of `Psi`, then the two matmul calls, each entered from
  what the item before it left. The contents of the core's unscoped buffers are followed through @main as a fold:
  the launch memory; after the host operations; after the first call, whose result array then holds what its
  write-backs leave; after the second call likewise. Every weakly fair execution terminates with every unscoped buffer at
  the last fold. Neither argument is written by any item, so both end as launched, and the result array ends at what
  the second call's write-backs leave.
-/
import proofs.«124379_j76613626626565_1_alg».proof.Proof.KB.Region0
import proofs.«124379_j76613626626565_1_alg».proof.Proof.KB.Region1
import proofs.«124379_j76613626626565_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- After the host operations (the first call's entry), read at the core's references. -/
abbrev E1 : (c : Dev nD) → (b : Ref sig .tc) → Buf (Elt F) ((c : Thread nD τ).loc b) := fun c b => V1 m c b
/-- After the first call: its arrays at what the pipeline leaves, every other buffer as entered. -/
def W2 (c : Dev nD) : Valuation τ sig (Elt F) :=
  Pipeline.withArrays spec0 c (V1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb
/-- The same read at the core's references (the second call's entry). -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second call. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## The arguments end as launched, and the result is what the second call leaves -/

/-- `x` is the right factor of both calls, an input window of each: no write-back touches it, no host operation writes it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 1).trans (((dat1 (E2 m) c).arrAt_in 1 rfl _).trans (A_eq1 (E2 m) c 1))
    _ = V1 m c (Proc.devRef .tc main_arg0) := (W2_arr m c 1).trans (((dat0 (E1 m) c).arrAt_in 1 rfl _).trans (A_eq0 (E1 m) c 1))
    _ = m ((c : Thread nD τ).loc main_arg0) := (V1_of m c main_arg0 (by decide)).trans rfl
/-- `Psi` is read by the host operations only: neither call has it among its arrays. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = V1 m c (Proc.devRef .tc main_arg1) := W2_of_ne m c main_arg1 (by decide)
    _ = m ((c : Thread nD τ).loc main_arg1) := (V1_of m c main_arg1 (by decide)).trans rfl
/-- The result array: the second call's output window. -/
theorem W3_main_v7 (c : Dev nD) : W3 m c (Proc.devRef .tc main_v7) = (dat1 (E2 m) c).arrAt 2 cfg1.N := W3_arr m c 2
/-- What the second call finds in its left factor's array: the first call's output window. -/
theorem E2_main_v6 (c : Dev nD) : E2 m c main_v6 = (dat0 (E1 m) c).arrAt 2 cfg0.N := W2_arr m c 2
/-- and in `x`: the launch contents. -/
theorem E2_main_arg0 (c : Dev nD) : E2 m c main_arg0 = m ((c : Thread nD τ).loc main_arg0) :=
  ((W2_arr m c 1).trans (((dat0 (E1 m) c).arrAt_in 1 rfl _).trans (A_eq0 (E1 m) c 1))).trans ((V1_of m c main_arg0 (by decide)).trans rfl)
theorem E1_main_arg0 (c : Dev nD) : E1 m c main_arg0 = m ((c : Thread nD τ).loc main_arg0) :=
  (V1_of m c main_arg0 (by decide)).trans rfl

/-! ## The proof data of both calls, and what rides along -/

/-- No call prefetches a table. -/
abbrev tabs : (p : Fin 2) → (pcfgs (F := F) p).Adm := fun p => (cfgs p).toPCfg_adm
/-- Each call's proof data at the contents it is entered from. -/
def pdats : (p : Fin 2) → (c : Dev nD) → Dat τ (Elt F) Unit ℕ (UR sig nD τ) ℕ (Pipeline.pin (pcfgs (F := F)) tabs p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- The host operations as one segment over the unscoped buffers. -/
abbrev hseg (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without the `owes`. -/
abbrev Tₙ (c : Dev nD) : sProp 𝕄 := iprop(StableHlo.held (c : Thread nD τ) (Pipeline.ucRefs τ sig) (W3 m c) ∗ ∃ r, prngReg c r)

/-! ## The two calls as segments -/

set_option backward.isDefEq.respectTransparency.types false in
/-- The first call: entered from every unscoped buffer at the contents after the host operations, left with its
    arrays at what its write-backs leave. The generator register goes into the invariant and comes back; the
    accumulator is tracked from the first point on and forgotten at the exit; nothing is owed. -/
def reg0 : Pipeline.RegionSeg (pcfgs (F := F)) tabs (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) tabs (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (E1 m) c)
    unfold Pipeline.ΦA
    iintro ⟨Hp, -, Hr⟩
    isplitl [Hr]; · iexact Hr
    iexact Hp
  hout c := by
    rw [Pipeline.ownSems0_none]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tabs (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call, entered from what the first left; its exit is the program's last state. -/
def reg1 : Pipeline.RegionSeg (pcfgs (F := F)) tabs (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) tabs (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (E2 m) c)
    unfold Pipeline.ΦA
    iintro ⟨Hp, -, Hr⟩
    isplitl [Hr]; · iexact Hr
    iexact Hp
  hout c := by
    rw [Pipeline.ownSems0_none]
    refine (hout1 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) tabs (pdats m) () defs₀ 𝒱₀ L lv) :=
  [ .host (hseg (V0 m)),
    .region (reg0 m),
    .region (reg1 m) ]
theorem main_run (c : Dev nD) : main (F := F) c = Pipeline.Seg.run (segs m) := (main_chain c).trans (by chain_rfl)

set_option backward.isDefEq.respectTransparency.types false in
/-- Every weakly fair execution of @main from memory `m` with zero counters terminates, nothing faulting, with every
    unscoped buffer of every core at the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) tabs (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m c),
     (h c _ (mem_uc main_arg1 (by decide))).trans (W3_main_arg1 m c)⟩) (run_all m ρ)

/-- The run with the result array named: it ends at what the second call's write-backs leave, the arguments as launched. -/
theorem run_value : θ_run defs (onTc (τ := τ) (main (F := F))) ⟨m, fun _ => 0, ρ⟩ (fun r => ∀ c : Dev nD,
      r.2.mem ((c.tc : Thread nD τ).loc main_v7) = (dat1 (E2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v7 (by decide))).trans (W3_main_v7 m c),
     (h c _ (mem_uc main_arg0 (by decide))).trans (W3_main_arg0 m c),
     (h c _ (mem_uc main_arg1 (by decide))).trans (W3_main_arg1 m c)⟩) (run_all m ρ)

end Cert.Kernel.Hand

end
-- ==== Proof.KI.Scoped0.lean ====
/-
  What is particular to the first matmul call: its accumulator (a scratch buffer of the kernel's own), the core's
  other scoped buffers, which its body never touches, and what its last stretch writes into the output block,
  the accumulator narrowed to bf16.
-/
import proofs.«124379_j76613626626565_1_alg».proof.Proof.Gen.KernelIdeal.Launch
import proofs.«124379_j76613626626565_1_alg».proof.Proof.Gen.KernelIdeal.Skeleton
import proofs.«124379_j76613626626565_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store of both bodies are zero: each moves a whole buffer. -/
theorem hz2 : (![0, 0] : Fin 2 → Nat) = fun _ => 0 := by funext a; fin_cases a <;> rfl

/-- A store of a whole 2048 × 1024 f32 buffer, last, covers every index of it, whatever was stored before. -/
theorem cover_acc (w : Vec F S2048x1024 .f32) (L : List (View.Piece (Elt F) S2048x1024 .f32)) (y : S2048x1024.Idx) :
    ∃ pc ∈ ((⟨Rect.unit (s := S2048x1024) ![0, 0] S2048x1024.size inb_S2048x1024_S2048x1024_0_0, w⟩ : View.Piece (Elt F) S2048x1024 .f32) :: L), y ∈ pc.1.set :=
  ⟨_, List.Mem.head _, View.mem_set_unit_zero (S := S2048x1024) hz2 inb_S2048x1024_S2048x1024_0_0 y⟩

/-- The accumulator: a whole scoped buffer. -/
abbrev scM0 : Memref sig .tc .vmem S2048x1024 .f32 := Memref.whole cc0_scratch0

/-- The core's other scoped buffers (the second call's staging buffers and accumulator), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the call's invariant holds when nothing is tracked: the accumulator at some contents, the other scoped
    buffers, the generator register. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA rest0; rw [scopedRest0_eq]; simp only [scM0, owns_whole]; try rfl

/-- What the last stretch of a row writes into the output block: the accumulator narrowed to bf16. -/
def outPay0 (s : Vec F S2048x1024 .f32) : Vec F S2048x1024 .bf16 := k0_pay3 s

/-- A store of the whole output block covers it. -/
theorem cover_out0 (w : Vec F S2048x1024 .bf16) (L : List (View.Piece (Elt F) S2048x1024 .bf16)) (y : S2048x1024.Idx) :
    ∃ pc ∈ ((⟨Rect.unit (s := S2048x1024) ![0, 0] S2048x1024.size inb_S2048x1024_S2048x1024_0_0, w⟩ : View.Piece (Elt F) S2048x1024 .bf16) :: L), y ∈ pc.1.set :=
  ⟨_, List.Mem.head _, View.mem_set_unit_zero (S := S2048x1024) hz2 inb_S2048x1024_S2048x1024_0_0 y⟩

end Cert.KernelIdeal.Hand

end
-- ==== Proof.KI.Region0.lean ====
/-
  A matmul call, point by point, at any float instance and at any contents `V` the call is entered from.
  The grid is 4 × 32: the first coordinate picks a block of 1024 columns of the product, the second, `k`, a stretch
  of 256 contracted positions. The body keeps a 2048 × 1024 accumulator in a scratch buffer: at `k = 0` it overwrites
  it with zeros, at every point it adds the product of the point's two blocks into it, and at `k = 31` it writes the
  accumulator out (`outPay0`) into the output block, which is written back to the array only there. So after point
  `n` the scratch holds the sum of the products of the points of the current row of the grid up to `n`: `acc0`,
  a recursion on the point that restarts where `n % 32 = 0`.
-/
import proofs.«124379_j76613626626565_1_alg».proof.Proof.KI.Scoped0
import proofs.«124379_j76613626626565_1_alg».proof.Proof.Gen.KernelIdeal.Launch
import proofs.«124379_j76613626626565_1_alg».proof.Proof.Gen.KernelIdeal.Skeleton
import proofs.«124379_j76613626626565_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks the body is handed -/

/-- Window `w`'s block at point `t`, read off the array the call finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's block at point `t`: all 2048 rows, the point's 256 contracted positions. -/
abbrev lhs0 (c : Dev nD) (t : Fin cfg0.N) : Vec F S2048x256 .f32 := iblk0 V c 0 t
/-- The right factor's block at point `t`: the block of `x` that meets it. -/
abbrev rhs0 (c : Dev nD) (t : Fin cfg0.N) : Vec F S1024x256 .f32 := iblk0 V c 1 t

/-- An input window's staging buffer holds its block at every point (both inputs are fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, in closed form over the grid -/

/-- `k = 0`: the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)
/-- `k = 31`: the accumulator is written out. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-- The inputs are live at every point; the output is live exactly where it is written, and is not written back elsewhere. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
/-! ## The body's three cases -/

set_option maxHeartbeats 1000000 in
/-- `k = 0` (and not the last stretch): the accumulator, whatever it held, ends at the point's product added to zeros;
    the output block is not touched. -/
theorem kernel0_first (c : Dev nD) (E : Set ℕ) (i : grid0.Coords)
    (arg2 : Memref sig .tc .vmem S2048x256 .f32) (harg2 : arg2.IsWhole) (arg3 : Memref sig .tc .vmem S1024x256 .f32) (harg3 : arg3.IsWhole)
    (arg4 : Memref sig .tc .vmem S2048x1024 .bf16) (harg4 : arg4.IsWhole) (arg5 : Memref sig .tc .vmem S2048x1024 .f32) (harg5 : arg5.IsWhole)
    (hc0 : cond0_0 i) (hc1 : ¬cond0_1 i)
    (x0 : Vec F S2048x256 .f32) (x1 : Vec F S1024x256 .f32) (d : Vec F S2048x1024 .bf16) (K : PUnit → sProp 𝕄) :
    iprop(owns (c : Thread nD τ) arg2 fullShare x0 ∗ owns (c : Thread nD τ) arg3 fullShare x1 ∗ owns (c : Thread nD τ) arg4 fullShare d
        ∗ (∃ s, owns (c : Thread nD τ) arg5 fullShare s)
        ∗ (iprop(owns (c : Thread nD τ) arg2 fullShare x0 ∗ owns (c : Thread nD τ) arg3 fullShare x1 ∗ owns (c : Thread nD τ) arg4 fullShare d
            ∗ owns (c : Thread nD τ) arg5 fullShare (k0_pay2 x0 x1 (k0_pay1 (F := F)))) -∗ K ⟨⟩))
      ⊢ wp frame (wpE (defs₀ (F := F)) Variants.none c none) E (cc0__mm1_kernel i arg2 harg2 arg3 harg3 arg4 harg4 arg5 harg5) K := by
  simp only [cc0__mm1_kernel_eq_skeleton]; unfold cc0__mm1_kernel_skel
  unfold owns
  iintro ⟨⟨%f0, %hf0, H0⟩, ⟨%f1, %hf1, H1⟩, ⟨%f4, %hf4, H4⟩, ⟨%s, %f5, -, H5⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact hf4
    iexact H4
  iexists _; isplitr
  swap; · iexact H5
  ipureintro
  sl_unfold_words
  rw [View.read_writes_eq_canon _ _ _ (cover_acc _ _), View.canon_cons_unit_zero hz2]
  simp only [View.readAt_eq_ld, harg2.read_unread, harg3.read_unread, View.ld_unit_zero (S := S2048x256) hz2, View.ld_unit_zero (S := S1024x256) hz2, View.ld_unit_zero (S := S2048x1024) hz2, View.readCov_unit_zero (S := S2048x1024) _ hz2]

set_option maxHeartbeats 1000000 in
/-- `0 < k < 31`: the point's product is added to what the accumulator held; the output block is not touched. -/
theorem kernel0_mid (c : Dev nD) (E : Set ℕ) (i : grid0.Coords)
    (arg2 : Memref sig .tc .vmem S2048x256 .f32) (harg2 : arg2.IsWhole) (arg3 : Memref sig .tc .vmem S1024x256 .f32) (harg3 : arg3.IsWhole)
    (arg4 : Memref sig .tc .vmem S2048x1024 .bf16) (harg4 : arg4.IsWhole) (arg5 : Memref sig .tc .vmem S2048x1024 .f32) (harg5 : arg5.IsWhole)
    (hc0 : ¬cond0_0 i) (hc1 : ¬cond0_1 i)
    (x0 : Vec F S2048x256 .f32) (x1 : Vec F S1024x256 .f32) (d : Vec F S2048x1024 .bf16) (s : Vec F S2048x1024 .f32) (K : PUnit → sProp 𝕄) :
    iprop(owns (c : Thread nD τ) arg2 fullShare x0 ∗ owns (c : Thread nD τ) arg3 fullShare x1 ∗ owns (c : Thread nD τ) arg4 fullShare d
        ∗ owns (c : Thread nD τ) arg5 fullShare s
        ∗ (iprop(owns (c : Thread nD τ) arg2 fullShare x0 ∗ owns (c : Thread nD τ) arg3 fullShare x1 ∗ owns (c : Thread nD τ) arg4 fullShare d
            ∗ owns (c : Thread nD τ) arg5 fullShare (k0_pay2 x0 x1 s)) -∗ K ⟨⟩))
      ⊢ wp frame (wpE (defs₀ (F := F)) Variants.none c none) E (cc0__mm1_kernel i arg2 harg2 arg3 harg3 arg4 harg4 arg5 harg5) K := by
  simp only [cc0__mm1_kernel_eq_skeleton]; unfold cc0__mm1_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact hf4
    iexact H4
  iexists _; isplitr
  swap; · iexact H5
  ipureintro
  sl_unfold_words
  rw [View.read_writes_eq_canon _ _ _ (cover_acc _ _), View.canon_unit_zero hz2]
  simp only [View.readAt_eq_ld, harg2.read_unread, harg3.read_unread, View.ld_unit_zero (S := S2048x256) hz2, View.ld_unit_zero (S := S1024x256) hz2, View.ld_unit_zero (S := S2048x1024) hz2, harg5.read_unread]

set_option maxHeartbeats 1000000 in
/-- `k = 31`: the point's product is added, and the accumulator is written out over the output block. -/
theorem kernel0_last (c : Dev nD) (E : Set ℕ) (i : grid0.Coords)
    (arg2 : Memref sig .tc .vmem S2048x256 .f32) (harg2 : arg2.IsWhole) (arg3 : Memref sig .tc .vmem S1024x256 .f32) (harg3 : arg3.IsWhole)
    (arg4 : Memref sig .tc .vmem S2048x1024 .bf16) (harg4 : arg4.IsWhole) (arg5 : Memref sig .tc .vmem S2048x1024 .f32) (harg5 : arg5.IsWhole)
    (hc0 : ¬cond0_0 i) (hc1 : cond0_1 i)
    (x0 : Vec F S2048x256 .f32) (x1 : Vec F S1024x256 .f32) (s : Vec F S2048x1024 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (outPay0 (k0_pay2 x0 x1 s))
            ∗ owns (c : Thread nD τ) arg5 fullShare (k0_pay2 x0 x1 s)) -∗ K ⟨⟩))
      ⊢ wp frame (wpE (defs₀ (F := F)) Variants.none c none) E (cc0__mm1_kernel i arg2 harg2 arg3 harg3 arg4 harg4 arg5 harg5) K := by
  simp only [cc0__mm1_kernel_eq_skeleton]; unfold cc0__mm1_kernel_skel
  unfold owns
  iintro ⟨⟨%f0, %hf0, H0⟩, ⟨%f1, %hf1, H1⟩, ⟨%d, %f4, -, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_eq_canon _ _ _ (cover_out0 _ _), View.canon_unit_zero hz2]
    simp only [outPay0, View.readAt_eq_ld, harg2.read_unread, harg3.read_unread, View.ld_unit_zero (S := S2048x256) hz2, View.ld_unit_zero (S := S1024x256) hz2, View.ld_unit_zero (S := S2048x1024) hz2, harg5.read_unread, View.readCov_unit_zero (S := S2048x1024) _ hz2]
  iexists _; isplitr
  swap; · iexact H5
  ipureintro
  sl_unfold_words
  rw [View.read_writes_eq_canon _ _ _ (cover_acc _ _), View.canon_unit_zero hz2]
  simp only [View.readAt_eq_ld, harg2.read_unread, harg3.read_unread, View.ld_unit_zero (S := S2048x256) hz2, View.ld_unit_zero (S := S1024x256) hz2, View.ld_unit_zero (S := S2048x1024) hz2, harg5.read_unread]

/-! ## What the accumulator holds after each point -/

/-- The accumulator after the body at position `n`: the point's product added to zeros where a row of the grid
    begins (`n % 32 = 0`), to what the point before left elsewhere. -/
def acc0 (c : Dev nD) : (n : ℕ) → n < cfg0.N → Vec F S2048x1024 .f32
  | 0, hn => k0_pay2 (lhs0 V c ⟨0, hn⟩) (rhs0 V c ⟨0, hn⟩) (k0_pay1 (F := F))
  | n + 1, hn =>
    if (n + 1) % 32 = 0 then k0_pay2 (lhs0 V c ⟨n + 1, hn⟩) (rhs0 V c ⟨n + 1, hn⟩) (k0_pay1 (F := F))
    else k0_pay2 (lhs0 V c ⟨n + 1, hn⟩) (rhs0 V c ⟨n + 1, hn⟩) (acc0 c n (Nat.lt_of_succ_lt hn))

theorem acc0_first (c : Dev nD) (t : Fin cfg0.N) (h0 : t.val % 32 = 0) :
    acc0 V c t.val t.isLt = k0_pay2 (lhs0 V c t) (rhs0 V c t) (k0_pay1 (F := F)) := by
  obtain ⟨n, hn⟩ := t
  cases n with
  | zero => rfl
  | succ n => exact if_pos h0
theorem acc0_next (c : Dev nD) (t : Fin cfg0.N) (h0 : ¬t.val % 32 = 0) :
    acc0 V c t.val t.isLt = k0_pay2 (lhs0 V c t) (rhs0 V c t) (acc0 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The call's invariant before position `n`: before the first point nothing is tracked; afterwards the accumulator
    is held at what the point before left in it. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (acc0 V c n hn) ∗ rest0 c) ∗ (∃ r, prngReg c r)) := rfl
theorem PhiS0_pos (c : Dev nD) (n : ℕ) (h : n ≤ cfg0.N) (hz : n ≠ 0) :
    PhiS0 V c n h = iprop((owns (c : Thread nD τ) scM0 fullShare (acc0 V c (n - 1) (by omega)) ∗ rest0 c) ∗ (∃ r, prngReg c r)) := by
  cases n with
  | zero => exact absurd rfl hz
  | succ n => rfl

/-! ## The call's proof data -/

/-- After the body at point `t`: the inputs' buffers at their blocks, the output's at what the accumulator is
    written out as (consulted only where the block is written, `k = 31`); the invariant tracks the accumulator; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outPay0 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outPay0 (acc0 V c t.val t.isLt) := by dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point, by the case its position in the row selects. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 32 = 31
  · -- the last stretch of the row: the accumulator is written out
    have h0 : ¬t.val % 32 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [acc0_next V c t h0, PhiS0_castSucc V c t, PhiS0_pos V c _ _ hz]
    iintro ⟨⟨⟨HS, Hr⟩, Hg⟩, Ho, ⟨%d0, H0⟩, ⟨%d1, H1⟩, ⟨%d2, H2⟩⟩
    iapply (kernel0_last c Set.univ (grid0.coords t) _ _ _ _ _ _ _ _ (fun h => h0 ((hcond0_0 t).mp h)) ((hcond0_1 t).mpr h1) (lhs0 V c t) (rhs0 V c t) _ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · -- elsewhere the output block is neither stored into nor written back
    rw [Dat.leavesExact_idle (dat0 V c) 2 t (idleAt0_2 t (fun h => h1 ((hcond0_1 t).mp h))) (noFlush0_2 t (fun h => h1 ((hcond0_1 t).mp h)))]
    by_cases h0 : t.val % 32 = 0
    · -- a row of the grid begins: the accumulator restarts from zeros
      rw [acc0_first V c t h0]
      by_cases hz : t.val = 0
      · rw [PhiS0_castSucc V c t, PhiS0_zero V c _ _ hz, PhiA0_eq]
        iintro ⟨⟨⟨HS, Hr⟩, Hg⟩, Ho, ⟨%d0, H0⟩, ⟨%d1, H1⟩, ⟨%d2, H2⟩⟩
        iapply (kernel0_first c Set.univ (grid0.coords t) _ _ _ _ _ _ _ _ ((hcond0_0 t).mpr h0) (fun h => h1 ((hcond0_1 t).mp h)) (lhs0 V c t) (rhs0 V c t) _ _)
        isplitl [H0]; · iexact H0
        isplitl [H1]; · iexact H1
        isplitl [H2]; · iexact H2
        isplitl [HS]; · iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS, Hr⟩, Hg⟩, Ho, ⟨%d0, H0⟩, ⟨%d1, H1⟩, ⟨%d2, H2⟩⟩
        iapply (kernel0_first c Set.univ (grid0.coords t) _ _ _ _ _ _ _ _ ((hcond0_0 t).mpr h0) (fun h => h1 ((hcond0_1 t).mp h)) (lhs0 V c t) (rhs0 V c t) _ _)
        isplitl [H0]; · iexact H0
        isplitl [H1]; · iexact H1
        isplitl [H2]; · iexact H2
        isplitl [HS]; · iexists _; iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
    · -- inside a row: the point's product is added to what the point before left
      have hz : t.val ≠ 0 := fun h => h0 (by rw [h])
      rw [acc0_next V c t h0, PhiS0_castSucc V c t, PhiS0_pos V c _ _ hz]
      iintro ⟨⟨⟨HS, Hr⟩, Hg⟩, Ho, ⟨%d0, H0⟩, ⟨%d1, H1⟩, ⟨%d2, H2⟩⟩
      iapply (kernel0_mid c Set.univ (grid0.coords t) _ _ _ _ _ _ _ _ (fun h => h0 ((hcond0_0 t).mp h)) (fun h => h1 ((hcond0_1 t).mp h)) (lhs0 V c t) (rhs0 V c t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- Entering the call nothing is tracked; leaving it the accumulator's contents are forgotten again. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
theorem hout0 (c : Dev nD) : (dat0 V c).Φ (Fin.last cfg0.N) ⊢ Pipeline.ΦA spec0 c := by
  rw [show (dat0 V c).Φ (Fin.last cfg0.N) = PhiS0 V c cfg0.N (Nat.le_refl _) from rfl,
    PhiS0_pos V c _ _ (by have : cfg0.N = 128 := N_0; omega), PhiA0_eq]
  iintro ⟨⟨HS, Hr⟩, Hg⟩
  isplitl [HS Hr]
  · isplitl [HS]
    · iexists _; iexact HS
    iexact Hr
  iexact Hg

end Cert.KernelIdeal.Hand

end
-- ==== Proof.KI.Scoped1.lean ====
/-
  What is particular to the second matmul call: its accumulator, the core's other scoped buffers — among which the
  printed list puts this call's accumulator last, so it is brought to the front here —, and what its last stretch
  writes into the output block: the accumulator itself.
-/
import proofs.«124379_j76613626626565_1_alg».proof.Proof.Gen.KernelIdeal.Launch
import proofs.«124379_j76613626626565_1_alg».proof.Proof.Gen.KernelIdeal.Skeleton
import proofs.«124379_j76613626626565_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import proofs.«124379_j76613626626565_1_alg».proof.Proof.KI.Scoped0
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator: a whole scoped buffer. -/
abbrev scM1 : Memref sig .tc .vmem S2048x1024 .f32 := Memref.whole cc1_scratch0

/-- The core's other scoped buffers (the first call's staging buffers and accumulator), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- What the call's invariant holds when nothing is tracked: the accumulator at some contents, the other scoped
    buffers, the generator register. The same separating conjunction as the printed list, reordered. -/
theorem PhiA1_eq (c : Dev nD) :
    (Pipeline.ΦA spec1 c : sProp 𝕄)
      = iprop(((∃ d, owns (c : Thread nD τ) scM1 fullShare d) ∗ rest1 c) ∗ (∃ r, prngReg c r)) := by
  unfold Pipeline.ΦA rest1; rw [scopedRest1_eq]; simp only [scM1, owns_whole]
  refine Entails.antisymm (?_ : (_ : sProp 𝕄) ⊢ _) (?_ : (_ : sProp 𝕄) ⊢ _)
  · iintro ⟨⟨B1, B2, B3, B4, B5, B6, B7, HS⟩, Hg⟩
    isplitl [B1 B2 B3 B4 B5 B6 B7 HS]
    · isplitl [HS]; · iexact HS
      isplitl [B1]; · iexact B1
      isplitl [B2]; · iexact B2
      isplitl [B3]; · iexact B3
      isplitl [B4]; · iexact B4
      isplitl [B5]; · iexact B5
      isplitl [B6]; · iexact B6
      iexact B7
    iexact Hg
  · iintro ⟨⟨HS, B1, B2, B3, B4, B5, B6, B7⟩, Hg⟩
    isplitl [B1 B2 B3 B4 B5 B6 B7 HS]
    · isplitl [B1]; · iexact B1
      isplitl [B2]; · iexact B2
      isplitl [B3]; · iexact B3
      isplitl [B4]; · iexact B4
      isplitl [B5]; · iexact B5
      isplitl [B6]; · iexact B6
      isplitl [B7]; · iexact B7
      iexact HS
    iexact Hg

/-- What the last stretch of a row writes into the output block: the accumulator as it stands. -/
def outPay1 (s : Vec F S2048x1024 .f32) : Vec F S2048x1024 .f32 := s

/-- A store of the whole output block covers it. -/
theorem cover_out1 (w : Vec F S2048x1024 .f32) (L : List (View.Piece (Elt F) S2048x1024 .f32)) (y : S2048x1024.Idx) :
    ∃ pc ∈ ((⟨Rect.unit (s := S2048x1024) ![0, 0] S2048x1024.size inb_S2048x1024_S2048x1024_0_0, w⟩ : View.Piece (Elt F) S2048x1024 .f32) :: L), y ∈ pc.1.set :=
  cover_acc w L y

end Cert.KernelIdeal.Hand

end
-- ==== Proof.KI.Region1.lean ====
/-
  A matmul call, point by point, at any float instance and at any contents `V` the call is entered from.
  The grid is 8 × 16: the first coordinate picks a block of 1024 columns of the product, the second, `k`, a stretch
  of 256 contracted positions. The body keeps a 2048 × 1024 accumulator in a scratch buffer: at `k = 0` it overwrites
  it with zeros, at every point it adds the product of the point's two blocks into it, and at `k = 15` it writes the
  accumulator out (`outPay1`) into the output block, which is written back to the array only there. So after point
  `n` the scratch holds the sum of the products of the points of the current row of the grid up to `n`: `acc1`,
  a recursion on the point that restarts where `n % 16 = 0`.
-/
import proofs.«124379_j76613626626565_1_alg».proof.Proof.KI.Scoped1
import proofs.«124379_j76613626626565_1_alg».proof.Proof.Gen.KernelIdeal.Launch
import proofs.«124379_j76613626626565_1_alg».proof.Proof.Gen.KernelIdeal.Skeleton
import proofs.«124379_j76613626626565_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks the body is handed -/

/-- Window `w`'s block at point `t`, read off the array the call finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left factor's block at point `t`: all 2048 rows, the point's 256 contracted positions. -/
abbrev lhs1 (c : Dev nD) (t : Fin cfg1.N) : Vec F S2048x256 .bf16 := iblk1 V c 0 t
/-- The right factor's block at point `t`: the block of `x` that meets it. -/
abbrev rhs1 (c : Dev nD) (t : Fin cfg1.N) : Vec F S256x1024 .f32 := iblk1 V c 1 t

/-- An input window's staging buffer holds its block at every point (both inputs are fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, in closed form over the grid -/

/-- `k = 0`: the accumulator is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- `k = 15`: the accumulator is written out. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-- The inputs are live at every point; the output is live exactly where it is written, and is not written back elsewhere. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1024 .f32 := win1_2.stage (cfg1.slots t 2)
abbrev hs1_2 (t : Fin cfg1.N) : (ms1_2 t).IsWhole := hstage1_2 ((cfg1.slots t 2).cast nbuf1_2)
/-! ## The body's three cases -/

set_option maxHeartbeats 1000000 in
/-- `k = 0` (and not the last stretch): the accumulator, whatever it held, ends at the point's product added to zeros;
    the output block is not touched. -/
theorem kernel1_first (c : Dev nD) (E : Set ℕ) (i : grid1.Coords)
    (arg2 : Memref sig .tc .vmem S2048x256 .bf16) (harg2 : arg2.IsWhole) (arg3 : Memref sig .tc .vmem S256x1024 .f32) (harg3 : arg3.IsWhole)
    (arg4 : Memref sig .tc .vmem S2048x1024 .f32) (harg4 : arg4.IsWhole) (arg5 : Memref sig .tc .vmem S2048x1024 .f32) (harg5 : arg5.IsWhole)
    (hc0 : cond1_0 i) (hc1 : ¬cond1_1 i)
    (x0 : Vec F S2048x256 .bf16) (x1 : Vec F S256x1024 .f32) (d : Vec F S2048x1024 .f32) (K : PUnit → sProp 𝕄) :
    iprop(owns (c : Thread nD τ) arg2 fullShare x0 ∗ owns (c : Thread nD τ) arg3 fullShare x1 ∗ owns (c : Thread nD τ) arg4 fullShare d
        ∗ (∃ s, owns (c : Thread nD τ) arg5 fullShare s)
        ∗ (iprop(owns (c : Thread nD τ) arg2 fullShare x0 ∗ owns (c : Thread nD τ) arg3 fullShare x1 ∗ owns (c : Thread nD τ) arg4 fullShare d
            ∗ owns (c : Thread nD τ) arg5 fullShare (k1_pay2 x0 x1 (k1_pay1 (F := F)))) -∗ K ⟨⟩))
      ⊢ wp frame (wpE (defs₀ (F := F)) Variants.none c none) E (cc1__mm2_kernel i arg2 harg2 arg3 harg3 arg4 harg4 arg5 harg5) K := by
  simp only [cc1__mm2_kernel_eq_skeleton]; unfold cc1__mm2_kernel_skel
  unfold owns
  iintro ⟨⟨%f0, %hf0, H0⟩, ⟨%f1, %hf1, H1⟩, ⟨%f4, %hf4, H4⟩, ⟨%s, %f5, -, H5⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact hf4
    iexact H4
  iexists _; isplitr
  swap; · iexact H5
  ipureintro
  sl_unfold_words
  rw [View.read_writes_eq_canon _ _ _ (cover_acc _ _), View.canon_cons_unit_zero hz2]
  simp only [View.readAt_eq_ld, harg2.read_unread, harg3.read_unread, View.ld_unit_zero (S := S2048x256) hz2, View.ld_unit_zero (S := S256x1024) hz2, View.ld_unit_zero (S := S2048x1024) hz2, View.readCov_unit_zero (S := S2048x1024) _ hz2]

set_option maxHeartbeats 1000000 in
/-- `0 < k < 15`: the point's product is added to what the accumulator held; the output block is not touched. -/
theorem kernel1_mid (c : Dev nD) (E : Set ℕ) (i : grid1.Coords)
    (arg2 : Memref sig .tc .vmem S2048x256 .bf16) (harg2 : arg2.IsWhole) (arg3 : Memref sig .tc .vmem S256x1024 .f32) (harg3 : arg3.IsWhole)
    (arg4 : Memref sig .tc .vmem S2048x1024 .f32) (harg4 : arg4.IsWhole) (arg5 : Memref sig .tc .vmem S2048x1024 .f32) (harg5 : arg5.IsWhole)
    (hc0 : ¬cond1_0 i) (hc1 : ¬cond1_1 i)
    (x0 : Vec F S2048x256 .bf16) (x1 : Vec F S256x1024 .f32) (d : Vec F S2048x1024 .f32) (s : Vec F S2048x1024 .f32) (K : PUnit → sProp 𝕄) :
    iprop(owns (c : Thread nD τ) arg2 fullShare x0 ∗ owns (c : Thread nD τ) arg3 fullShare x1 ∗ owns (c : Thread nD τ) arg4 fullShare d
        ∗ owns (c : Thread nD τ) arg5 fullShare s
        ∗ (iprop(owns (c : Thread nD τ) arg2 fullShare x0 ∗ owns (c : Thread nD τ) arg3 fullShare x1 ∗ owns (c : Thread nD τ) arg4 fullShare d
            ∗ owns (c : Thread nD τ) arg5 fullShare (k1_pay2 x0 x1 s)) -∗ K ⟨⟩))
      ⊢ wp frame (wpE (defs₀ (F := F)) Variants.none c none) E (cc1__mm2_kernel i arg2 harg2 arg3 harg3 arg4 harg4 arg5 harg5) K := by
  simp only [cc1__mm2_kernel_eq_skeleton]; unfold cc1__mm2_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact hf4
    iexact H4
  iexists _; isplitr
  swap; · iexact H5
  ipureintro
  sl_unfold_words
  rw [View.read_writes_eq_canon _ _ _ (cover_acc _ _), View.canon_unit_zero hz2]
  simp only [View.readAt_eq_ld, harg2.read_unread, harg3.read_unread, View.ld_unit_zero (S := S2048x256) hz2, View.ld_unit_zero (S := S256x1024) hz2, View.ld_unit_zero (S := S2048x1024) hz2, harg5.read_unread]

set_option maxHeartbeats 1000000 in
/-- `k = 15`: the point's product is added, and the accumulator is written out over the output block. -/
theorem kernel1_last (c : Dev nD) (E : Set ℕ) (i : grid1.Coords)
    (arg2 : Memref sig .tc .vmem S2048x256 .bf16) (harg2 : arg2.IsWhole) (arg3 : Memref sig .tc .vmem S256x1024 .f32) (harg3 : arg3.IsWhole)
    (arg4 : Memref sig .tc .vmem S2048x1024 .f32) (harg4 : arg4.IsWhole) (arg5 : Memref sig .tc .vmem S2048x1024 .f32) (harg5 : arg5.IsWhole)
    (hc0 : ¬cond1_0 i) (hc1 : cond1_1 i)
    (x0 : Vec F S2048x256 .bf16) (x1 : Vec F S256x1024 .f32) (s : Vec F S2048x1024 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (outPay1 (k1_pay2 x0 x1 s))
            ∗ owns (c : Thread nD τ) arg5 fullShare (k1_pay2 x0 x1 s)) -∗ K ⟨⟩))
      ⊢ wp frame (wpE (defs₀ (F := F)) Variants.none c none) E (cc1__mm2_kernel i arg2 harg2 arg3 harg3 arg4 harg4 arg5 harg5) K := by
  simp only [cc1__mm2_kernel_eq_skeleton]; unfold cc1__mm2_kernel_skel
  unfold owns
  iintro ⟨⟨%f0, %hf0, H0⟩, ⟨%f1, %hf1, H1⟩, ⟨%d, %f4, -, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_eq_canon _ _ _ (cover_out1 _ _), View.canon_unit_zero hz2]
    simp only [outPay1, View.readAt_eq_ld, harg2.read_unread, harg3.read_unread, View.ld_unit_zero (S := S2048x256) hz2, View.ld_unit_zero (S := S256x1024) hz2, View.ld_unit_zero (S := S2048x1024) hz2, harg5.read_unread, View.readCov_unit_zero (S := S2048x1024) _ hz2]
  iexists _; isplitr
  swap; · iexact H5
  ipureintro
  sl_unfold_words
  rw [View.read_writes_eq_canon _ _ _ (cover_acc _ _), View.canon_unit_zero hz2]
  simp only [View.readAt_eq_ld, harg2.read_unread, harg3.read_unread, View.ld_unit_zero (S := S2048x256) hz2, View.ld_unit_zero (S := S256x1024) hz2, View.ld_unit_zero (S := S2048x1024) hz2, harg5.read_unread]

/-! ## What the accumulator holds after each point -/

/-- The accumulator after the body at position `n`: the point's product added to zeros where a row of the grid
    begins (`n % 16 = 0`), to what the point before left elsewhere. -/
def acc1 (c : Dev nD) : (n : ℕ) → n < cfg1.N → Vec F S2048x1024 .f32
  | 0, hn => k1_pay2 (lhs1 V c ⟨0, hn⟩) (rhs1 V c ⟨0, hn⟩) (k1_pay1 (F := F))
  | n + 1, hn =>
    if (n + 1) % 16 = 0 then k1_pay2 (lhs1 V c ⟨n + 1, hn⟩) (rhs1 V c ⟨n + 1, hn⟩) (k1_pay1 (F := F))
    else k1_pay2 (lhs1 V c ⟨n + 1, hn⟩) (rhs1 V c ⟨n + 1, hn⟩) (acc1 c n (Nat.lt_of_succ_lt hn))

theorem acc1_first (c : Dev nD) (t : Fin cfg1.N) (h0 : t.val % 16 = 0) :
    acc1 V c t.val t.isLt = k1_pay2 (lhs1 V c t) (rhs1 V c t) (k1_pay1 (F := F)) := by
  obtain ⟨n, hn⟩ := t
  cases n with
  | zero => rfl
  | succ n => exact if_pos h0
theorem acc1_next (c : Dev nD) (t : Fin cfg1.N) (h0 : ¬t.val % 16 = 0) :
    acc1 V c t.val t.isLt = k1_pay2 (lhs1 V c t) (rhs1 V c t) (acc1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The call's invariant before position `n`: before the first point nothing is tracked; afterwards the accumulator
    is held at what the point before left in it. -/
def PhiS1 (c : Dev nD) : (n : ℕ) → n ≤ cfg1.N → sProp 𝕄
  | 0, _ => Pipeline.ΦA spec1 c
  | n + 1, hn => iprop((owns (c : Thread nD τ) scM1 fullShare (acc1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (acc1 V c n hn) ∗ rest1 c) ∗ (∃ r, prngReg c r)) := rfl
theorem PhiS1_pos (c : Dev nD) (n : ℕ) (h : n ≤ cfg1.N) (hz : n ≠ 0) :
    PhiS1 V c n h = iprop((owns (c : Thread nD τ) scM1 fullShare (acc1 V c (n - 1) (by omega)) ∗ rest1 c) ∗ (∃ r, prngReg c r)) := by
  cases n with
  | zero => exact absurd rfl hz
  | succ n => rfl

/-! ## The call's proof data -/

/-- After the body at point `t`: the inputs' buffers at their blocks, the output's at what the accumulator is
    written out as (consulted only where the block is written, `k = 15`); the invariant tracks the accumulator; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outPay1 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outPay1 (acc1 V c t.val t.isLt) := by dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point, by the case its position in the row selects. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 16 = 15
  · -- the last stretch of the row: the accumulator is written out
    have h0 : ¬t.val % 16 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [acc1_next V c t h0, PhiS1_castSucc V c t, PhiS1_pos V c _ _ hz]
    iintro ⟨⟨⟨HS, Hr⟩, Hg⟩, Ho, ⟨%d0, H0⟩, ⟨%d1, H1⟩, ⟨%d2, H2⟩⟩
    iapply (kernel1_last c Set.univ (grid1.coords t) _ _ _ _ _ _ _ _ (fun h => h0 ((hcond1_0 t).mp h)) ((hcond1_1 t).mpr h1) (lhs1 V c t) (rhs1 V c t) _ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · -- elsewhere the output block is neither stored into nor written back
    rw [Dat.leavesExact_idle (dat1 V c) 2 t (idleAt1_2 t (fun h => h1 ((hcond1_1 t).mp h))) (noFlush1_2 t (fun h => h1 ((hcond1_1 t).mp h)))]
    by_cases h0 : t.val % 16 = 0
    · -- a row of the grid begins: the accumulator restarts from zeros
      rw [acc1_first V c t h0]
      by_cases hz : t.val = 0
      · rw [PhiS1_castSucc V c t, PhiS1_zero V c _ _ hz, PhiA1_eq]
        iintro ⟨⟨⟨HS, Hr⟩, Hg⟩, Ho, ⟨%d0, H0⟩, ⟨%d1, H1⟩, ⟨%d2, H2⟩⟩
        iapply (kernel1_first c Set.univ (grid1.coords t) _ _ _ _ _ _ _ _ ((hcond1_0 t).mpr h0) (fun h => h1 ((hcond1_1 t).mp h)) (lhs1 V c t) (rhs1 V c t) _ _)
        isplitl [H0]; · iexact H0
        isplitl [H1]; · iexact H1
        isplitl [H2]; · iexact H2
        isplitl [HS]; · iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS, Hr⟩, Hg⟩, Ho, ⟨%d0, H0⟩, ⟨%d1, H1⟩, ⟨%d2, H2⟩⟩
        iapply (kernel1_first c Set.univ (grid1.coords t) _ _ _ _ _ _ _ _ ((hcond1_0 t).mpr h0) (fun h => h1 ((hcond1_1 t).mp h)) (lhs1 V c t) (rhs1 V c t) _ _)
        isplitl [H0]; · iexact H0
        isplitl [H1]; · iexact H1
        isplitl [H2]; · iexact H2
        isplitl [HS]; · iexists _; iexact HS
        iintro ⟨H0, H1, H2, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        iexists _; iexact H2
    · -- inside a row: the point's product is added to what the point before left
      have hz : t.val ≠ 0 := fun h => h0 (by rw [h])
      rw [acc1_next V c t h0, PhiS1_castSucc V c t, PhiS1_pos V c _ _ hz]
      iintro ⟨⟨⟨HS, Hr⟩, Hg⟩, Ho, ⟨%d0, H0⟩, ⟨%d1, H1⟩, ⟨%d2, H2⟩⟩
      iapply (kernel1_mid c Set.univ (grid1.coords t) _ _ _ _ _ _ _ _ (fun h => h0 ((hcond1_0 t).mp h)) (fun h => h1 ((hcond1_1 t).mp h)) (lhs1 V c t) (rhs1 V c t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- Entering the call nothing is tracked; leaving it the accumulator's contents are forgotten again. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
theorem hout1 (c : Dev nD) : (dat1 V c).Φ (Fin.last cfg1.N) ⊢ Pipeline.ΦA spec1 c := by
  rw [show (dat1 V c).Φ (Fin.last cfg1.N) = PhiS1 V c cfg1.N (Nat.le_refl _) from rfl,
    PhiS1_pos V c _ _ (by have : cfg1.N = 128 := N_1; omega), PhiA1_eq]
  iintro ⟨⟨HS, Hr⟩, Hg⟩
  isplitl [HS Hr]
  · isplitl [HS]
    · iexists _; iexact HS
    iexact Hr
  iexact Hg

end Cert.KernelIdeal.Hand

end
-- ==== Proof.KI.Launch.lean ====
/-
  The whole program at any float instance: the host's centring of `Psi`, then the two matmul calls, each entered from
  what the item before it left. The contents of the core's unscoped buffers are followed through @main as a fold:
  the launch memory; after the host operations; after the first call, whose result array then holds what its
  write-backs leave; after the second call likewise. Every weakly fair execution terminates with every unscoped buffer at
  the last fold. Neither argument is written by any item, so both end as launched, and the result array ends at what
  the second call's write-backs leave.
-/
import proofs.«124379_j76613626626565_1_alg».proof.Proof.KI.Region0
import proofs.«124379_j76613626626565_1_alg».proof.Proof.KI.Region1
import proofs.«124379_j76613626626565_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- After the host operations (the first call's entry), read at the core's references. -/
abbrev E1 : (c : Dev nD) → (b : Ref sig .tc) → Buf (Elt F) ((c : Thread nD τ).loc b) := fun c b => V1 m c b
/-- After the first call: its arrays at what the pipeline leaves, every other buffer as entered. -/
def W2 (c : Dev nD) : Valuation τ sig (Elt F) :=
  Pipeline.withArrays spec0 c (V1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb
/-- The same read at the core's references (the second call's entry). -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second call. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## The arguments end as launched, and the result is what the second call leaves -/

/-- `x` is the right factor of both calls, an input window of each: no write-back touches it, no host operation writes it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 1).trans (((dat1 (E2 m) c).arrAt_in 1 rfl _).trans (A_eq1 (E2 m) c 1))
    _ = V1 m c (Proc.devRef .tc main_arg0) := (W2_arr m c 1).trans (((dat0 (E1 m) c).arrAt_in 1 rfl _).trans (A_eq0 (E1 m) c 1))
    _ = m ((c : Thread nD τ).loc main_arg0) := (V1_of m c main_arg0 (by decide)).trans rfl
/-- `Psi` is read by the host operations only: neither call has it among its arrays. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = V1 m c (Proc.devRef .tc main_arg1) := W2_of_ne m c main_arg1 (by decide)
    _ = m ((c : Thread nD τ).loc main_arg1) := (V1_of m c main_arg1 (by decide)).trans rfl
/-- The result array: the second call's output window. -/
theorem W3_main_v7 (c : Dev nD) : W3 m c (Proc.devRef .tc main_v7) = (dat1 (E2 m) c).arrAt 2 cfg1.N := W3_arr m c 2
/-- What the second call finds in its left factor's array: the first call's output window. -/
theorem E2_main_v6 (c : Dev nD) : E2 m c main_v6 = (dat0 (E1 m) c).arrAt 2 cfg0.N := W2_arr m c 2
/-- and in `x`: the launch contents. -/
theorem E2_main_arg0 (c : Dev nD) : E2 m c main_arg0 = m ((c : Thread nD τ).loc main_arg0) :=
  ((W2_arr m c 1).trans (((dat0 (E1 m) c).arrAt_in 1 rfl _).trans (A_eq0 (E1 m) c 1))).trans ((V1_of m c main_arg0 (by decide)).trans rfl)
theorem E1_main_arg0 (c : Dev nD) : E1 m c main_arg0 = m ((c : Thread nD τ).loc main_arg0) :=
  (V1_of m c main_arg0 (by decide)).trans rfl

/-! ## The proof data of both calls, and what rides along -/

/-- No call prefetches a table. -/
abbrev tabs : (p : Fin 2) → (pcfgs (F := F) p).Adm := fun p => (cfgs p).toPCfg_adm
/-- Each call's proof data at the contents it is entered from. -/
def pdats : (p : Fin 2) → (c : Dev nD) → Dat τ (Elt F) Unit ℕ (UR sig nD τ) ℕ (Pipeline.pin (pcfgs (F := F)) tabs p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- The host operations as one segment over the unscoped buffers. -/
abbrev hseg (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without the `owes`. -/
abbrev Tₙ (c : Dev nD) : sProp 𝕄 := iprop(StableHlo.held (c : Thread nD τ) (Pipeline.ucRefs τ sig) (W3 m c) ∗ ∃ r, prngReg c r)

/-! ## The two calls as segments -/

set_option backward.isDefEq.respectTransparency.types false in
/-- The first call: entered from every unscoped buffer at the contents after the host operations, left with its
    arrays at what its write-backs leave. The generator register goes into the invariant and comes back; the
    accumulator is tracked from the first point on and forgotten at the exit; nothing is owed. -/
def reg0 : Pipeline.RegionSeg (pcfgs (F := F)) tabs (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) tabs (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (E1 m) c)
    unfold Pipeline.ΦA
    iintro ⟨Hp, -, Hr⟩
    isplitl [Hr]; · iexact Hr
    iexact Hp
  hout c := by
    rw [Pipeline.ownSems0_none]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tabs (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call, entered from what the first left; its exit is the program's last state. -/
def reg1 : Pipeline.RegionSeg (pcfgs (F := F)) tabs (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) tabs (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (E2 m) c)
    unfold Pipeline.ΦA
    iintro ⟨Hp, -, Hr⟩
    isplitl [Hr]; · iexact Hr
    iexact Hp
  hout c := by
    rw [Pipeline.ownSems0_none]
    refine (hout1 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) tabs (pdats m) () defs₀ 𝒱₀ L lv) :=
  [ .host (hseg (V0 m)),
    .region (reg0 m),
    .region (reg1 m) ]
theorem main_run (c : Dev nD) : main (F := F) c = Pipeline.Seg.run (segs m) := (main_chain c).trans (by chain_rfl)

set_option backward.isDefEq.respectTransparency.types false in
/-- Every weakly fair execution of @main from memory `m` with zero counters terminates, nothing faulting, with every
    unscoped buffer of every core at the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) tabs (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m c),
     (h c _ (mem_uc main_arg1 (by decide))).trans (W3_main_arg1 m c)⟩) (run_all m ρ)

/-- The run with the result array named: it ends at what the second call's write-backs leave, the arguments as launched. -/
theorem run_value : θ_run defs (onTc (τ := τ) (main (F := F))) ⟨m, fun _ => 0, ρ⟩ (fun r => ∀ c : Dev nD,
      r.2.mem ((c.tc : Thread nD τ).loc main_v7) = (dat1 (E2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v7 (by decide))).trans (W3_main_v7 m c),
     (h c _ (mem_uc main_arg0 (by decide))).trans (W3_main_arg0 m c),
     (h c _ (mem_uc main_arg1 (by decide))).trans (W3_main_arg1 m c)⟩) (run_all m ρ)

end Cert.KernelIdeal.Hand

end
-- ==== Proof.Spec.lean ====
/-
  What both programs compute, as two whole-array functions over the extended reals. With `P` the centred `Psi`
  (2048 × 8192) and `x` (4096 × 8192):

      tmp (r, d) = Σ_p P (r, p) · x (d, p)          (2048 × 4096, contracting the 8192 positions)
      out (r, n) = Σ_d tmp (r, d) · x (d, n)        (2048 × 8192, contracting the 4096 rows of x)

  The reference computes each as one contraction. The kernel computes each entry as a sum over stretches of 256
  contracted positions, one stretch per grid point, accumulated from zero. The two agree because a finite sum of extended
  reals may be regrouped: addition there is commutative and associative (products are formed entry by entry on both
  sides, so nothing is distributed and no finiteness is used).
-/
import Idealize.ShloMosaic.PureOps.Ideal
import Idealize.ShloMosaic.Lib.ValueIdx
import Mathlib.Algebra.BigOperators.Fin
import Mathlib.Algebra.BigOperators.Intervals

noncomputable section

namespace Cert.Spec

open Idealize.ShloMosaic Idealize.ShloMosaic.ValueIdx

abbrev SPsi : Shape := ⟨2, ![2048, 8192]⟩
abbrev SX : Shape := ⟨2, ![4096, 8192]⟩
abbrev STmp : Shape := ⟨2, ![2048, 4096]⟩

/-- The first product: row `r` of `P` against row `d` of `x`, over the 8192 positions. -/
def tmpOf (P : SPsi.Idx → EReal) (x : SX.Idx → EReal) : STmp.Idx → EReal :=
  fun i => ∑ p : Fin 8192, P (ix2 (i 0) p) * x (ix2 (i 1) p)

/-- The second product: row `r` of `T` against column `n` of `x`, over the 4096 rows of `x`. -/
def outOf (T : STmp.Idx → EReal) (x : SX.Idx → EReal) : SPsi.Idx → EReal :=
  fun i => ∑ d : Fin 4096, T (ix2 (i 0) d) * x (ix2 d (i 1))

/-- A sum over `K` stretches of `B` positions each is the sum over all `K * B` positions, position `B * k + q`
    being the `q`-th of stretch `k`. -/
theorem sum_stretches {M : Type} [AddCommMonoid M] (K B : ℕ) (f : ℕ → M) :
    ∑ k : Fin K, ∑ q : Fin B, f (B * k.val + q.val) = ∑ p : Fin (K * B), f p.val := by
  rw [← Fintype.sum_prod_type', ← Equiv.sum_comp finProdFinEquiv]
  refine Finset.sum_congr rfl fun kq _ => ?_
  obtain ⟨k, q⟩ := kq
  show f (B * k.val + q.val) = f ((finProdFinEquiv (k, q)).val)
  rw [finProdFinEquiv_apply_val, Nat.add_comm]

/-- A running sum that starts from zero and adds one term per step is the sum of the terms so far. -/
theorem run_sum {M : Type} [AddCommMonoid M] (g a : ℕ → M) (h0 : a 0 = 0 + g 0) (hs : ∀ k, a (k + 1) = a k + g (k + 1)) (k : ℕ) :
    a k = ∑ j ∈ Finset.range (k + 1), g j := by
  induction k with
  | zero => rw [h0, zero_add, Finset.sum_range_one]
  | succ k ih => rw [hs, ih, Finset.sum_range_succ _ (k + 1)]

end Cert.Spec

end
-- ==== Proof.KI.Value0.lean ====
/-
  The first matmul call's result, read as a function of the arrays it is entered from, over the extended reals.
  At a point `t = 32 di + k` the body adds to the accumulator, at row `r` and column `j`, the sum over the 256 positions
  `q` of the stretch of `P (r, 256 k + q) · x (1024 di + j, 256 k + q)`; the accumulator restarts from zero at `k = 0`.
  So after the last stretch, `k = 31`, entry `(r, j)` holds the sum over all 32 stretches, which is the sum over all 8192
  positions (`Spec.sum_stretches`): `tmp (r, 1024 di + j)`. That block is written back at column block `di`; the four
  written blocks tile the 4096 columns.
-/
import proofs.«124379_j76613626626565_1_alg».proof.Proof.KI.Region0
import proofs.«124379_j76613626626565_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

-- the contents the call is entered from, at the extended reals
variable (V : (c : Dev nD) → (b : Ref sig .tc) → Buf (Elt Ideal) ((c : Thread nD τ).loc b))

/-! ## One point's arithmetic at an index -/

/-- The kernel's matmul contracts axis 1 of both blocks: in its operands' indices, axis 0 is the result's row
    (left) or column (right), axis 1 the contracted position. -/
theorem lhs_mm0_0 (i : S2048x1024.Idx) (q : dot_S2048x256_S1024x256_S2048x1024_1_1_0_0_n_n.contr.Idx) :
    (dot_S2048x256_S1024x256_S2048x1024_1_1_0_0_n_n.lhsIdx i q 0).val = (i 0).val := by
  unfold DotDims.lhsIdx
  rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
  rfl
theorem lhs_mm0_1 (i : S2048x1024.Idx) (q : dot_S2048x256_S1024x256_S2048x1024_1_1_0_0_n_n.contr.Idx) :
    (dot_S2048x256_S1024x256_S2048x1024_1_1_0_0_n_n.lhsIdx i q 1).val = (q ⟨0, by decide⟩).val :=
  dot_S2048x256_S1024x256_S2048x1024_1_1_0_0_n_n.lhsIdx_val_of_single rfl i q
theorem rhs_mm0_0 (i : S2048x1024.Idx) (q : dot_S2048x256_S1024x256_S2048x1024_1_1_0_0_n_n.contr.Idx) :
    (dot_S2048x256_S1024x256_S2048x1024_1_1_0_0_n_n.rhsIdx i q 0).val = (i 1).val := by
  unfold DotDims.rhsIdx
  rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
  rfl
theorem rhs_mm0_1 (i : S2048x1024.Idx) (q : dot_S2048x256_S1024x256_S2048x1024_1_1_0_0_n_n.contr.Idx) :
    (dot_S2048x256_S1024x256_S2048x1024_1_1_0_0_n_n.rhsIdx i q 1).val = (q ⟨0, by decide⟩).val :=
  dot_S2048x256_S1024x256_S2048x1024_1_1_0_0_n_n.rhsIdx_val_of_single rfl i q

/-- The block product into zeros, at row `r` and column `j`: the sum over the 256 positions of the left block's row `r`
    against the right block's row `j`. -/
theorem mm0_apply (a : FVec Ideal S2048x256 .bf16) (b : FVec Ideal S1024x256 .bf16) (r : Fin 2048) (j : Fin 1024) :
    matmul dot_S2048x256_S1024x256_S2048x1024_1_1_0_0_n_n none a b (constant (F := Ideal) S2048x1024 .f32 0x00000000#32) (ix2 r j)
      = ∑ q : Fin 256, a (ix2 r q) * b (ix2 j q) := by
  simp only [matmul]
  rw [Ideal.matmul_constant_zero_apply, ← Equiv.sum_comp (ValueIdx.contrEquiv1 dot_S2048x256_S1024x256_S2048x1024_1_1_0_0_n_n 256 rfl rfl).symm]
  refine Finset.sum_congr rfl fun k _ => ?_
  have hk := ValueIdx.contrEquiv1_symm_val dot_S2048x256_S1024x256_S2048x1024_1_1_0_0_n_n 256 rfl rfl k
  have el : dot_S2048x256_S1024x256_S2048x1024_1_1_0_0_n_n.lhsIdx (ix2 r j) ((ValueIdx.contrEquiv1 dot_S2048x256_S1024x256_S2048x1024_1_1_0_0_n_n 256 rfl rfl).symm k) = ix2 r k := funext fun a => Fin.ext (by
    match a with
    | ⟨0, _⟩ => exact lhs_mm0_0 _ _
    | ⟨1, _⟩ => exact (lhs_mm0_1 _ _).trans hk)
  have er : dot_S2048x256_S1024x256_S2048x1024_1_1_0_0_n_n.rhsIdx (ix2 r j) ((ValueIdx.contrEquiv1 dot_S2048x256_S1024x256_S2048x1024_1_1_0_0_n_n 256 rfl rfl).symm k) = ix2 j k := funext fun a => Fin.ext (by
    match a with
    | ⟨0, _⟩ => exact rhs_mm0_0 _ _
    | ⟨1, _⟩ => exact (rhs_mm0_1 _ _).trans hk)
  rw [el, er]

/-- The zeros the accumulator restarts from. -/
theorem pay1_apply (r : Fin 2048) (j : Fin 1024) : k0_pay1 (F := Ideal) (ix2 r j) = 0 := by
  unfold k0_pay1
  rw [shapeCast_self]
  exact Ideal.ofBits_zero_f32

/-- One point's update: what the accumulator held plus the products over the stretch's 256 positions
    (row `r` of the left block against row `j` of the right block). -/
theorem pay2_apply (x0 : Vec Ideal S2048x256 .f32) (x1 : Vec Ideal S1024x256 .f32) (s : Vec Ideal S2048x1024 .f32)
    (r : Fin 2048) (j : Fin 1024) :
    k0_pay2 (F := Ideal) x0 x1 s (ix2 r j) = s (ix2 r j) + ∑ q : Fin 256, x0 (ix2 r q) * x1 (ix2 j q) := by
  unfold k0_pay2
  rw [shapeCast_self, shapeCast_self, addf_apply, mm0_apply]
  rfl

/-- Writing the accumulator out changes the format only. -/
theorem outPay0_apply (s : Vec Ideal S2048x1024 .f32) (i : S2048x1024.Idx) : outPay0 (F := Ideal) s i = s i := by
  rfl

/-! ## The accumulator as a sum -/

/-- The two arrays the call is entered from, at their literal types: the centred `Psi` and `x`. -/
abbrev Parr (c : Dev nD) : SPsi.Idx → EReal := V c main_v5
abbrev Xarr (c : Dev nD) : SX.Idx → EReal := V c main_arg0

/-- Row `r` of the left array as a function of a position, zero past the end; `x` likewise of a row and a position. -/
def Pn (c : Dev nD) (r : Fin 2048) (p : ℕ) : EReal := if h : p < 8192 then Parr V c (ix2 r ⟨p, h⟩) else 0
def Xn (c : Dev nD) (d p : ℕ) : EReal := if h : d < 4096 ∧ p < 8192 then Xarr V c (ix2 ⟨d, h.1⟩ ⟨p, h.2⟩) else 0

/-! ## The blocks, read off the arrays -/

/-- The three index maps over the grid: point `t` is stretch `t % 32` of row `t / 32` of the grid. -/
theorem idx0_0 : ∀ t : Fin cfg0.N, win0_0.index t 0 = 0 ∧ win0_0.index t 1 = t.val % 32 :=
  (by decide +kernel : ∀ t : Fin grid0.N, win0_0.index t 0 = 0 ∧ win0_0.index t 1 = t.val % 32)
theorem idx0_1 : ∀ t : Fin cfg0.N, win0_1.index t 0 = t.val / 32 ∧ win0_1.index t 1 = t.val % 32 :=
  (by decide +kernel : ∀ t : Fin grid0.N, win0_1.index t 0 = t.val / 32 ∧ win0_1.index t 1 = t.val % 32)
theorem idx0_2 : ∀ t : Fin cfg0.N, win0_2.index t 0 = 0 ∧ win0_2.index t 1 = t.val / 32 :=
  (by decide +kernel : ∀ t : Fin grid0.N, win0_2.index t 0 = 0 ∧ win0_2.index t 1 = t.val / 32)

/-- The left block at point `t`: columns `256 (t % 32) …` of the left array. -/
theorem lhs0_apply (c : Dev nD) (t : Fin cfg0.N) (r : Fin 2048) (q : Fin 256) :
    lhs0 V c t (ix2 r q) = Pn V c r (256 * (t.val % 32) + q.val) := by
  have hN : t.val < 128 := lt_of_lt_of_eq t.isLt (show cfg0.N = 128 from N_0)
  have hp : 256 * (t.val % 32) + q.val < 8192 := by have := q.isLt; omega
  unfold Pn; rw [dif_pos hp]
  show iblk0 V c 0 t (ix2 r q) = V c main_v5 (ix2 r ⟨_, hp⟩)
  unfold iblk0
  rw [View.read_apply]
  show V c main_v5 _ = V c main_v5 _
  congr 1
  funext a
  apply Fin.ext
  match a with
  | ⟨0, _⟩ => show win0_0.index t 0 * 2048 + 1 * r.val = r.val; rw [(idx0_0 t).1]; omega
  | ⟨1, _⟩ => show win0_0.index t 1 * 256 + 1 * q.val = 256 * (t.val % 32) + q.val; rw [(idx0_0 t).2]; omega

/-- The right block at point `t`: rows `1024 (t / 32) …` of `x`, the same columns. -/
theorem rhs0_apply (c : Dev nD) (t : Fin cfg0.N) (j : Fin 1024) (q : Fin 256) :
    rhs0 V c t (ix2 j q) = Xn V c (1024 * (t.val / 32) + j.val) (256 * (t.val % 32) + q.val) := by
  have hN : t.val < 128 := lt_of_lt_of_eq t.isLt (show cfg0.N = 128 from N_0)
  have hd : 1024 * (t.val / 32) + j.val < 4096 := by have := j.isLt; omega
  have hp : 256 * (t.val % 32) + q.val < 8192 := by have := q.isLt; omega
  unfold Xn; rw [dif_pos ⟨hd, hp⟩]
  show iblk0 V c 1 t (ix2 j q) = V c main_arg0 (ix2 ⟨_, hd⟩ ⟨_, hp⟩)
  unfold iblk0
  rw [View.read_apply]
  show V c main_arg0 _ = V c main_arg0 _
  congr 1
  funext a
  apply Fin.ext
  match a with
  | ⟨0, _⟩ => show win0_1.index t 0 * 1024 + 1 * j.val = 1024 * (t.val / 32) + j.val; rw [(idx0_1 t).1]; omega
  | ⟨1, _⟩ => show win0_1.index t 1 * 256 + 1 * q.val = 256 * (t.val % 32) + q.val; rw [(idx0_1 t).2]; omega

/-- The products of stretch `k` for row `r` and column `d`. -/
def term0 (c : Dev nD) (r : Fin 2048) (d : ℕ) (k : ℕ) : EReal :=
  ∑ q : Fin 256, Pn V c r (256 * k + q.val) * Xn V c d (256 * k + q.val)

/-- The products the body forms at point `t` are the term of stretch `t % 32` for the point's row of the grid. -/
theorem point_term0 (c : Dev nD) (t : Fin cfg0.N) (r : Fin 2048) (j : Fin 1024) :
    ∑ q : Fin 256, lhs0 V c t (ix2 r q) * rhs0 V c t (ix2 j q) = term0 V c r (1024 * (t.val / 32) + j.val) (t.val % 32) := by
  unfold term0
  exact Finset.sum_congr rfl fun q _ => by rw [lhs0_apply, rhs0_apply]

/-- After point `n` the accumulator holds the stretches of the current row of the grid up to `n`'s. -/
theorem acc0_apply (c : Dev nD) (n : ℕ) (hn : n < cfg0.N) (r : Fin 2048) (j : Fin 1024) :
    acc0 V c n hn (ix2 r j) = ∑ k ∈ Finset.range (n % 32 + 1), term0 V c r (1024 * (n / 32) + j.val) k := by
  revert hn
  induction n with
  | zero =>
    intro hn
    refine (congrFun (acc0_first V c ⟨0, hn⟩ (Nat.zero_mod 32)) (ix2 r j)).trans ?_
    rw [pay2_apply, pay1_apply, zero_add, point_term0]
    simp only [Nat.zero_mod, Nat.zero_div, Nat.mul_zero, zero_add, Finset.sum_range_one]
  | succ n ih =>
    intro hn
    have hN : n + 1 < 128 := lt_of_lt_of_eq hn (show cfg0.N = 128 from N_0)
    by_cases h0 : (n + 1) % 32 = 0
    · -- a row of the grid begins: one stretch so far
      refine (congrFun (acc0_first V c ⟨n + 1, hn⟩ h0) (ix2 r j)).trans ?_
      rw [pay2_apply, pay1_apply, zero_add, point_term0]
      show term0 V c r (1024 * ((n + 1) / 32) + j.val) ((n + 1) % 32) = _
      rw [h0, Finset.sum_range_one]
    · -- inside a row: the stretches so far, and this one
      have hd : (n + 1) / 32 = n / 32 := by omega
      have hm : (n + 1) % 32 = n % 32 + 1 := by omega
      refine (congrFun (acc0_next V c ⟨n + 1, hn⟩ h0) (ix2 r j)).trans ?_
      rw [pay2_apply, point_term0]
      show acc0 V c n (Nat.lt_of_succ_lt hn) (ix2 r j) + term0 V c r (1024 * ((n + 1) / 32) + j.val) ((n + 1) % 32) = _
      rw [ih (Nat.lt_of_succ_lt hn), hd, hm, Finset.sum_range_succ _ (n % 32 + 1)]

/-- All 32 stretches are the whole contraction. -/
theorem stretches0 (c : Dev nD) (r : Fin 2048) (d : Fin 4096) :
    ∑ k ∈ Finset.range 32, term0 V c r d.val k = tmpOf (Parr V c) (Xarr V c) (ix2 r d) := by
  unfold term0
  rw [Finset.sum_range]
  refine (sum_stretches (M := EReal) 32 256 (fun p => Pn V c r p * Xn V c d.val p)).trans ?_
  show ∑ p : Fin 8192, Pn V c r p.val * Xn V c d.val p.val = _
  unfold tmpOf
  refine Finset.sum_congr rfl fun p _ => ?_
  unfold Pn Xn
  rw [dif_pos p.isLt, dif_pos ⟨d.isLt, p.isLt⟩]

/-! ## The result array -/

/-- What a point that closes a row of the grid writes back is its block of the first product: columns
    `1024 (t / 32) …`, all rows. -/
theorem flushed0 (c : Dev nD) (t : Fin cfg0.N) (hf : (cfg0.win 2).flush t = true) :
    (dat0 (F := Ideal) V c).flushed 2 t = ((cfg0.win 2).blk t).view.read (Elt Ideal) (tmpOf (Parr V c) (Xarr V c)) := by
  have h31 : t.val % 32 = 31 := (flush0_2 t).mp hf
  have hN : t.val < 128 := lt_of_lt_of_eq t.isLt (show cfg0.N = 128 from N_0)
  show (cfg0.win 2).cut (grid0.coords t) ((dat0 V c).after 2 t) = _
  rw [after0_2]
  funext y
  obtain ⟨r, j, rfl⟩ : ∃ (r : Fin 2048) (j : Fin 1024), y = ix2 r j := ⟨y 0, y 1, eq_ix2 y⟩
  have hd : 1024 * (t.val / 32) + j.val < 4096 := by have := j.isLt; omega
  show outPay0 (acc0 V c t.val t.isLt) (ix2 r j) = tmpOf (Parr V c) (Xarr V c) (((cfg0.win 2).blk t).view.emb (ix2 r j))
  rw [outPay0_apply, acc0_apply, h31]
  refine (stretches0 V c r ⟨1024 * (t.val / 32) + j.val, hd⟩).trans (congrArg _ ?_)
  funext a
  apply Fin.ext
  match a with
  | ⟨0, _⟩ => show r.val = win0_2.index t 0 * 2048 + 1 * r.val; rw [(idx0_2 t).1]; omega
  | ⟨1, _⟩ => show 1024 * (t.val / 32) + j.val = win0_2.index t 1 * 1024 + 1 * j.val; rw [(idx0_2 t).2]; omega

/-- An index of the result array lies in point `t`'s block iff each coordinate lies in the block's range on its axis. -/
theorem mem_blk0 (t : Fin cfg0.N) (i : S2048x4096.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v6).slice (win0_2.rect t)).set ↔ _
  rw [View.set_slice_whole, Rect.mem_set_unit]
  exact Iff.rfl

/-- Every index of the result array is in the block written back at the end of its row of the grid. -/
theorem cover0 (i : S2048x4096.Idx) : ∃ t : Fin cfg0.N, (cfg0.win 2).flush t = true ∧ i ∈ ((cfg0.win 2).blk t).view.set := by
  have h0 : (i 0).val < 2048 := (i 0).isLt
  have h1 : (i 1).val < 4096 := (i 1).isLt
  have hN : cfg0.N = 128 := N_0
  refine ⟨⟨32 * ((i 1).val / 1024) + 31, by omega⟩, (flush0_2 _).mpr (by show (32 * ((i 1).val / 1024) + 31) % 32 = 31; omega), ?_⟩
  rw [mem_blk0]
  intro a
  match a with
  | ⟨0, _⟩ =>
    show win0_2.index ⟨32 * ((i 1).val / 1024) + 31, _⟩ 0 * 2048 ≤ (i 0).val ∧ (i 0).val < win0_2.index ⟨32 * ((i 1).val / 1024) + 31, _⟩ 0 * 2048 + 2048
    rw [(idx0_2 _).1]; omega
  | ⟨1, _⟩ =>
    show win0_2.index ⟨32 * ((i 1).val / 1024) + 31, _⟩ 1 * 1024 ≤ (i 1).val ∧ (i 1).val < win0_2.index ⟨32 * ((i 1).val / 1024) + 31, _⟩ 1 * 1024 + 1024
    rw [(idx0_2 _).2]
    show (32 * ((i 1).val / 1024) + 31) / 32 * 1024 ≤ (i 1).val ∧ (i 1).val < (32 * ((i 1).val / 1024) + 31) / 32 * 1024 + 1024
    omega

/-- The first call's result array after the call is the first product of the arrays it was entered from. -/
theorem final0 (c : Dev nD) :
    (dat0 (F := Ideal) V c).arrAt 2 cfg0.N = tmpOf (Parr V c) (Xarr V c) := by
  exact (dat0 V c).arrAt_eq_of_cover 2 (tmpOf (Parr V c) (Xarr V c)) (flushed0 V c) (cover0)

end Cert.KernelIdeal.Hand

end
-- ==== Proof.KI.Value1.lean ====
/-
  The second matmul call's result, read as a function of the arrays it is entered from, over the extended reals.
  At a point `t = 16 ni + k` the body adds to the accumulator, at row `r` and column `j`, the sum over the 256 rows
  `q` of the stretch of `T (r, 256 k + q) · x (256 k + q, 1024 ni + j)`; the accumulator restarts from zero at `k = 0`.
  So after the last stretch, `k = 15`, entry `(r, j)` holds the sum over all 16 stretches, which is the sum over all 4096
  rows (`Spec.sum_stretches`): `out (r, 1024 ni + j)`. That block is written back at column block `ni`; the eight
  written blocks tile the 8192 columns.
-/
import proofs.«124379_j76613626626565_1_alg».proof.Proof.KI.Region1
import proofs.«124379_j76613626626565_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

-- the contents the call is entered from, at the extended reals
variable (V : (c : Dev nD) → (b : Ref sig .tc) → Buf (Elt Ideal) ((c : Thread nD τ).loc b))

/-! ## One point's arithmetic at an index -/

/-- The zeros the accumulator restarts from. -/
theorem pay1_apply1 (r : Fin 2048) (j : Fin 1024) : k1_pay1 (F := Ideal) (ix2 r j) = 0 := by
  unfold k1_pay1
  simp only [shapeCast_self, broadcast_apply]
  exact Ideal.ofBits_zero_f32

/-- The product's operand indices, axis by axis: the left operand is read at (row of the result, contracted position),
    the right at (contracted position, column of the result). -/
theorem lhs_mm1_0 (i : S2048x1024.Idx) (q : dot_S2048x256_S256x1024_S2048x1024_1_0_0_1_n_n.contr.Idx) :
    (dot_S2048x256_S256x1024_S2048x1024_1_0_0_1_n_n.lhsIdx i q 0).val = (i 0).val := by
  unfold DotDims.lhsIdx
  rw [dif_neg (show ¬(0 : Fin S2048x256.rank) ∈ dot_S2048x256_S256x1024_S2048x1024_1_0_0_1_n_n.lhsBatch by decide), dif_pos (show (0 : Fin S2048x256.rank) ∈ dot_S2048x256_S256x1024_S2048x1024_1_0_0_1_n_n.lhsNonContracting by decide)]
  rfl
theorem lhs_mm1_1 (i : S2048x1024.Idx) (q : dot_S2048x256_S256x1024_S2048x1024_1_0_0_1_n_n.contr.Idx) :
    (dot_S2048x256_S256x1024_S2048x1024_1_0_0_1_n_n.lhsIdx i q 1).val = (q ⟨0, by decide⟩).val :=
  dot_S2048x256_S256x1024_S2048x1024_1_0_0_1_n_n.lhsIdx_val_of_single rfl i q
theorem rhs_mm1_0 (i : S2048x1024.Idx) (q : dot_S2048x256_S256x1024_S2048x1024_1_0_0_1_n_n.contr.Idx) :
    (dot_S2048x256_S256x1024_S2048x1024_1_0_0_1_n_n.rhsIdx i q 0).val = (q ⟨0, by decide⟩).val :=
  dot_S2048x256_S256x1024_S2048x1024_1_0_0_1_n_n.rhsIdx_val_of_single rfl i q
theorem rhs_mm1_1 (i : S2048x1024.Idx) (q : dot_S2048x256_S256x1024_S2048x1024_1_0_0_1_n_n.contr.Idx) :
    (dot_S2048x256_S256x1024_S2048x1024_1_0_0_1_n_n.rhsIdx i q 1).val = (i 1).val := by
  unfold DotDims.rhsIdx
  rw [dif_neg (show ¬(1 : Fin S256x1024.rank) ∈ dot_S2048x256_S256x1024_S2048x1024_1_0_0_1_n_n.rhsBatch by decide), dif_pos (show (1 : Fin S256x1024.rank) ∈ dot_S2048x256_S256x1024_S2048x1024_1_0_0_1_n_n.rhsNonContracting by decide)]
  rfl

/-- The product of a 2048 × 256 block and a 256 × 1024 block into zeros, at an index: the sum over the 256 positions. -/
theorem mm1_apply (a : FVec Ideal S2048x256 .bf16) (b : FVec Ideal S256x1024 .bf16) (r : Fin 2048) (j : Fin 1024) :
    matmul dot_S2048x256_S256x1024_S2048x1024_1_0_0_1_n_n none a b (constant (F := Ideal) S2048x1024 .f32 0x00000000#32) (ix2 r j)
      = ∑ q : Fin 256, a (ix2 r q) * b (ix2 q j) := by
  refine (Ideal.matmul_constant_zero_apply dot_S2048x256_S256x1024_S2048x1024_1_0_0_1_n_n none a b (ix2 r j)).trans ?_
  rw [← Equiv.sum_comp (ValueIdx.contrEquiv1 dot_S2048x256_S256x1024_S2048x1024_1_0_0_1_n_n 256 rfl rfl).symm]
  refine Finset.sum_congr rfl fun k _ => ?_
  have hk := ValueIdx.contrEquiv1_symm_val dot_S2048x256_S256x1024_S2048x1024_1_0_0_1_n_n 256 rfl rfl k
  have el : dot_S2048x256_S256x1024_S2048x1024_1_0_0_1_n_n.lhsIdx (ix2 r j) ((ValueIdx.contrEquiv1 dot_S2048x256_S256x1024_S2048x1024_1_0_0_1_n_n 256 rfl rfl).symm k) = ix2 r k := funext fun a => Fin.ext (by
    match a with
    | ⟨0, _⟩ => exact lhs_mm1_0 _ _
    | ⟨1, _⟩ => exact (lhs_mm1_1 _ _).trans hk)
  have er : dot_S2048x256_S256x1024_S2048x1024_1_0_0_1_n_n.rhsIdx (ix2 r j) ((ValueIdx.contrEquiv1 dot_S2048x256_S256x1024_S2048x1024_1_0_0_1_n_n 256 rfl rfl).symm k) = ix2 k j := funext fun a => Fin.ext (by
    match a with
    | ⟨0, _⟩ => exact (rhs_mm1_0 _ _).trans hk
    | ⟨1, _⟩ => exact rhs_mm1_1 _ _)
  rw [el, er]

/-- One point's update: what the accumulator held plus the products over the stretch's 256 rows
    (row `r` of the left block against column `j` of the right block). -/
theorem pay2_apply1 (x0 : Vec Ideal S2048x256 .bf16) (x1 : Vec Ideal S256x1024 .f32) (s : Vec Ideal S2048x1024 .f32)
    (r : Fin 2048) (j : Fin 1024) :
    k1_pay2 (F := Ideal) x0 x1 s (ix2 r j) = s (ix2 r j) + ∑ q : Fin 256, x0 (ix2 r q) * x1 (ix2 q j) := by
  unfold k1_pay2
  simp only [shapeCast_self, addf_apply]
  refine congrArg (s (ix2 r j) + ·) ?_
  refine (mm1_apply x0 (truncf .bf16 x1 bitsLt_bf16_f32) r j).trans ?_
  rfl

/-- Writing the accumulator out changes nothing. -/
theorem outPay1_apply (s : Vec Ideal S2048x1024 .f32) (i : S2048x1024.Idx) : outPay1 (F := Ideal) s i = s i := rfl

/-! ## The accumulator as a sum -/

/-- The two arrays the call is entered from, at their literal types: the first product and `x`. -/
abbrev Tarr (c : Dev nD) : STmp.Idx → EReal := V c main_v6
abbrev Xarr1 (c : Dev nD) : SX.Idx → EReal := V c main_arg0

/-- Row `r` of the left array as a function of a position, zero past the end; `x` likewise of a row and a column. -/
def Tn (c : Dev nD) (r : Fin 2048) (p : ℕ) : EReal := if h : p < 4096 then Tarr V c (ix2 r ⟨p, h⟩) else 0
def Xn1 (c : Dev nD) (d n : ℕ) : EReal := if h : d < 4096 ∧ n < 8192 then Xarr1 V c (ix2 ⟨d, h.1⟩ ⟨n, h.2⟩) else 0

/-- Where the three windows' blocks sit, over the whole grid: the left block is column block `t % 16`, the right
    block is (row block `t % 16`, column block `t / 16`), the result block is column block `t / 16`. -/
theorem idx1_0 : ∀ t : Fin cfg1.N, win1_0.index t (0 : Fin 2) = 0 ∧ win1_0.index t (1 : Fin 2) = t.val % 16 :=
  (by decide +kernel : ∀ t : Fin grid1.N, win1_0.index t (0 : Fin 2) = 0 ∧ win1_0.index t (1 : Fin 2) = t.val % 16)
theorem idx1_1 : ∀ t : Fin cfg1.N, win1_1.index t (0 : Fin 2) = t.val % 16 ∧ win1_1.index t (1 : Fin 2) = t.val / 16 :=
  (by decide +kernel : ∀ t : Fin grid1.N, win1_1.index t (0 : Fin 2) = t.val % 16 ∧ win1_1.index t (1 : Fin 2) = t.val / 16)
theorem idx1_2 : ∀ t : Fin cfg1.N, win1_2.index t (0 : Fin 2) = 0 ∧ win1_2.index t (1 : Fin 2) = t.val / 16 :=
  (by decide +kernel : ∀ t : Fin grid1.N, win1_2.index t (0 : Fin 2) = 0 ∧ win1_2.index t (1 : Fin 2) = t.val / 16)

/-- The left block at point `t`: columns `256 (t % 16) …` of the left array. -/
theorem lhs1_apply (c : Dev nD) (t : Fin cfg1.N) (r : Fin 2048) (q : Fin 256) :
    lhs1 V c t (ix2 r q) = Tn V c r (256 * (t.val % 16) + q.val) := by
  have hN : cfg1.N = 128 := N_1
  have ht := t.isLt
  have hq := q.isLt
  have hp : 256 * (t.val % 16) + q.val < 4096 := by omega
  unfold Tn
  rw [dif_pos hp]
  show V c main_v6 (((cfg1.win 0).blk t).view.emb (ix2 r q)) = V c main_v6 _
  refine congrArg (V c main_v6) (funext fun a => Fin.ext ?_)
  match a with
  | ⟨0, _⟩ => show win1_0.index t (0 : Fin 2) * 2048 + 1 * r.val = r.val; rw [(idx1_0 t).1]; omega
  | ⟨1, _⟩ => show win1_0.index t (1 : Fin 2) * 256 + 1 * q.val = 256 * (t.val % 16) + q.val; rw [(idx1_0 t).2]; omega

/-- The right block at point `t`: the same 256 rows of `x`, columns `1024 (t / 16) …`. -/
theorem rhs1_apply (c : Dev nD) (t : Fin cfg1.N) (q : Fin 256) (j : Fin 1024) :
    rhs1 V c t (ix2 q j) = Xn1 V c (256 * (t.val % 16) + q.val) (1024 * (t.val / 16) + j.val) := by
  have hN : cfg1.N = 128 := N_1
  have ht := t.isLt
  have hq := q.isLt
  have hj := j.isLt
  have hp : 256 * (t.val % 16) + q.val < 4096 ∧ 1024 * (t.val / 16) + j.val < 8192 := by omega
  unfold Xn1
  rw [dif_pos hp]
  show V c main_arg0 (((cfg1.win 1).blk t).view.emb (ix2 q j)) = V c main_arg0 _
  refine congrArg (V c main_arg0) (funext fun a => Fin.ext ?_)
  match a with
  | ⟨0, _⟩ => show win1_1.index t (0 : Fin 2) * 256 + 1 * q.val = 256 * (t.val % 16) + q.val; rw [(idx1_1 t).1]; omega
  | ⟨1, _⟩ => show win1_1.index t (1 : Fin 2) * 1024 + 1 * j.val = 1024 * (t.val / 16) + j.val; rw [(idx1_1 t).2]; omega

/-- The products of stretch `k` for row `r` and column `n`. -/
def term1 (c : Dev nD) (r : Fin 2048) (n : ℕ) (k : ℕ) : EReal :=
  ∑ q : Fin 256, Tn V c r (256 * k + q.val) * Xn1 V c (256 * k + q.val) n

/-- After point `n` the accumulator holds the stretches of the current row of the grid up to `n`'s. -/
theorem point1_apply (c : Dev nD) (t : Fin cfg1.N) (s : Vec Ideal S2048x1024 .f32) (r : Fin 2048) (j : Fin 1024) :
    k1_pay2 (lhs1 V c t) (rhs1 V c t) s (ix2 r j)
      = s (ix2 r j) + term1 V c r (1024 * (t.val / 16) + j.val) (t.val % 16) := by
  rw [pay2_apply1]
  unfold term1
  refine congrArg (s (ix2 r j) + ·) (Finset.sum_congr rfl fun q _ => ?_)
  rw [lhs1_apply, rhs1_apply]

theorem acc1_apply (c : Dev nD) (n : ℕ) (hn : n < cfg1.N) (r : Fin 2048) (j : Fin 1024) :
    acc1 V c n hn (ix2 r j) = ∑ k ∈ Finset.range (n % 16 + 1), term1 V c r (1024 * (n / 16) + j.val) k := by
  induction n with
  | zero =>
    rw [show acc1 V c 0 hn = _ from acc1_first V c ⟨0, hn⟩ rfl, point1_apply, pay1_apply1, zero_add]
    show _ = ∑ k ∈ Finset.range 1, term1 V c r (1024 * (0 / 16) + j.val) k
    rw [Finset.sum_range_one]
    rfl
  | succ n ih =>
    by_cases h0 : (n + 1) % 16 = 0
    · rw [show acc1 V c (n + 1) hn = _ from acc1_first V c ⟨n + 1, hn⟩ h0, point1_apply, pay1_apply1, zero_add]
      show term1 V c r (1024 * ((n + 1) / 16) + j.val) ((n + 1) % 16) = _
      rw [h0, zero_add, Finset.sum_range_one]
    · rw [show acc1 V c (n + 1) hn = _ from acc1_next V c ⟨n + 1, hn⟩ h0, point1_apply]
      show acc1 V c n (Nat.lt_of_succ_lt hn) (ix2 r j) + term1 V c r (1024 * ((n + 1) / 16) + j.val) ((n + 1) % 16) = _
      rw [ih]
      have e1 : (n + 1) / 16 = n / 16 := by omega
      have e2 : (n + 1) % 16 = n % 16 + 1 := by omega
      rw [e1, e2, Finset.sum_range_succ _ (n % 16 + 1)]

/-- All 16 stretches are the whole contraction. -/
theorem stretches1 (c : Dev nD) (r : Fin 2048) (n : Fin 8192) :
    ∑ k ∈ Finset.range 16, term1 V c r n.val k = outOf (Tarr V c) (Xarr1 V c) (ix2 r n) := by
  rw [Finset.sum_range]
  unfold term1
  refine (Spec.sum_stretches 16 256 (fun p => Tn V c r p * Xn1 V c p n.val)).trans ?_
  unfold outOf
  show ∑ p : Fin 4096, Tn V c r p.val * Xn1 V c p.val n.val = ∑ d : Fin 4096, Tarr V c (ix2 r d) * Xarr1 V c (ix2 d n)
  refine Finset.sum_congr rfl fun p _ => ?_
  unfold Tn Xn1
  rw [dif_pos p.isLt, dif_pos ⟨p.isLt, n.isLt⟩]

/-! ## The result array -/

/-- What a point that writes back writes: its block of the product. At such a point, `k = 15`, the accumulator holds all
    16 stretches of the block's columns. -/
theorem flushed1_eq (c : Dev nD) (t : Fin cfg1.N) (hf : (cfg1.win 2).flush t = true) :
    (dat1 (F := Ideal) V c).flushed 2 t
      = ((cfg1.win 2).blk t).view.read (Elt Ideal) (outOf (Tarr V c) (Xarr1 V c)) := by
  have h15 : t.val % 16 = 15 := (flush1_2 t).mp hf
  have hN : cfg1.N = 128 := N_1
  have ht := t.isLt
  show (cfg1.win 2).cut (grid1.coords t) ((dat1 (F := Ideal) V c).after 2 t) = _
  rw [after1_2]
  funext y
  obtain ⟨r, j, rfl⟩ : ∃ (r : Fin 2048) (j : Fin 1024), y = ix2 r j := ⟨y 0, y 1, eq_ix2 y⟩
  have hj := j.isLt
  have hn : 1024 * (t.val / 16) + j.val < 8192 := by omega
  show outPay1 (acc1 V c t.val t.isLt) (ix2 r j) = outOf (Tarr V c) (Xarr1 V c) (((cfg1.win 2).blk t).view.emb (ix2 r j))
  rw [outPay1_apply, acc1_apply, h15]
  refine (stretches1 V c r ⟨1024 * (t.val / 16) + j.val, hn⟩).trans ?_
  refine congrArg (outOf (Tarr V c) (Xarr1 V c)) (funext fun a => Fin.ext ?_)
  match a with
  | ⟨0, _⟩ => show r.val = win1_2.index t (0 : Fin 2) * 2048 + 1 * r.val; rw [(idx1_2 t).1]; omega
  | ⟨1, _⟩ => show 1024 * (t.val / 16) + j.val = win1_2.index t (1 : Fin 2) * 1024 + 1 * j.val; rw [(idx1_2 t).2]; omega

/-- An index of the result array is in point `t`'s block iff each coordinate is in the block's range on its axis. -/
theorem mem_blk1_2 (t : Fin cfg1.N) (i : SPsi.Idx) :
    i ∈ ((cfg1.win 2).blk t).view.set ↔ ∀ a : Fin 2, win1_2.index t a * S2048x1024.size a ≤ (i a).val ∧ (i a).val < win1_2.index t a * S2048x1024.size a + S2048x1024.size a := by
  show i ∈ ((View.whole main_v7).slice (win1_2.rect t)).set ↔ _
  rw [View.set_slice_whole, Rect.mem_set_unit]
  exact Iff.rfl

/-- The second call's result array after the call is the second product of the arrays it was entered from. -/
theorem final1 (c : Dev nD) :
    (dat1 (F := Ideal) V c).arrAt 2 cfg1.N = outOf (Tarr V c) (Xarr1 V c) :=
  (dat1 (F := Ideal) V c).arrAt_eq_of_cover 2 (outOf (Tarr V c) (Xarr1 V c)) (flushed1_eq V c) fun i => by
    have hi0 : (i 0).val < 2048 := (i 0).isLt
    have hi1 : (i 1).val < 8192 := (i 1).isLt
    have hN : cfg1.N = 128 := N_1
    have htN : 16 * ((i 1).val / 1024) + 15 < cfg1.N := by omega
    refine ⟨⟨16 * ((i 1).val / 1024) + 15, htN⟩, (flush1_2 _).mpr (by show (16 * ((i 1).val / 1024) + 15) % 16 = 15; omega), ?_⟩
    rw [mem_blk1_2]
    intro a
    obtain ⟨e0, e1⟩ := idx1_2 ⟨16 * ((i 1).val / 1024) + 15, htN⟩
    have e1' : win1_2.index ⟨16 * ((i 1).val / 1024) + 15, htN⟩ (1 : Fin 2) = (i 1).val / 1024 := by rw [e1]; show (16 * ((i 1).val / 1024) + 15) / 16 = _; omega
    match a with
    | ⟨0, _⟩ => show win1_2.index _ (0 : Fin 2) * 2048 ≤ (i 0).val ∧ (i 0).val < win1_2.index _ (0 : Fin 2) * 2048 + 2048; rw [e0]; omega
    | ⟨1, _⟩ => show win1_2.index _ (1 : Fin 2) * 1024 ≤ (i 1).val ∧ (i 1).val < win1_2.index _ (1 : Fin 2) * 1024 + 1024; rw [e1']; omega

end Cert.KernelIdeal.Hand

end
-- ==== Proof.RefSide.lean ====
/-
  The reference, read back one operation at a time: after centring `Psi` it contracts twice on the host, first the 8192
  positions against `x`, then the 4096 rows of `x`. Entry by entry that is the second product of the first product:
  `out = outOf (tmpOf P x) x` with `P` the centred `Psi`.
-/
import proofs.«124379_j76613626626565_1_alg».proof.Proof.Gen.ReferenceIdeal.Read
import proofs.«124379_j76613626626565_1_alg».proof.Proof.Spec
import Idealize.ShloMosaic.Lib.ValueIdx
import Idealize.ShloMosaic.PureOps.Ideal.Laws

noncomputable section

namespace Cert.ReferenceIdeal.RefSide

open Cert.ReferenceIdeal Cert.ReferenceIdeal.Read Cert.Spec
open Idealize.ShloMosaic Idealize.ShloMosaic.ValueIdx Idealize.SL.Sem

/-- The reference's result, as a function of `x` and `Psi`: the two products of the centred `Psi`. -/
theorem ref_eq (x0 : (⟨S4096x8192, .f32⟩ : BufTy).Contents (Elt Ideal)) (x1 : (⟨S2048x8192, .f32⟩ : BufTy).Contents (Elt Ideal)) :
    val_main_v7 (F := Ideal) x0 x1 = outOf (tmpOf (val_main_v5 (F := Ideal) x1) x0) x0 := by
  funext i
  obtain ⟨r, n, rfl⟩ : ∃ (r : Fin 2048) (n : Fin 8192), i = ix2 r n := ⟨i 0, i 1, eq_ix2 i⟩
  rw [val_main_v7_apply]
  show _ = ∑ d : Fin 4096, tmpOf (val_main_v5 (F := Ideal) x1) x0 (ix2 r d) * x0 (ix2 d n)
  refine Finset.sum_congr rfl fun d _ => ?_
  have el : lidx_main_v7 (ix2 r n) d = ix2 r d := funext fun a => Fin.ext (by match a with | ⟨0, _⟩ => rfl | ⟨1, _⟩ => rfl)
  have er : ridx_main_v7 (ix2 r n) d = ix2 d n := funext fun a => Fin.ext (by match a with | ⟨0, _⟩ => rfl | ⟨1, _⟩ => rfl)
  rw [el, er, val_main_v6_apply]
  refine congrArg (· * x0 (ix2 d n)) ?_
  show _ = ∑ p : Fin 8192, val_main_v5 (F := Ideal) x1 (ix2 r p) * x0 (ix2 d p)
  refine Finset.sum_congr rfl fun p _ => ?_
  have el6 : lidx_main_v6 (ix2 r d) p = ix2 r p := funext fun a => Fin.ext (by match a with | ⟨0, _⟩ => rfl | ⟨1, _⟩ => rfl)
  have er6 : ridx_main_v6 (ix2 r d) p = ix2 d p := funext fun a => Fin.ext (by match a with | ⟨0, _⟩ => rfl | ⟨1, _⟩ => rfl)
  rw [el6, er6]

end Cert.ReferenceIdeal.RefSide

end
-- ==== Proof.Bridge.lean ====
/-
  The two results are one function of the arguments. On the kernel side the host operations leave the centred `Psi`
  in the first call's left array — the very term the reference's run names for it —, the first call leaves the first
  product of it and `x` in its result array, which is the second call's left array, and the second call leaves the
  second product of that and `x`. On the reference side the run's term is the same two products.
-/
import proofs.«124379_j76613626626565_1_alg».proof.Proof.KI.Launch
import proofs.«124379_j76613626626565_1_alg».proof.Proof.KI.Value0
import proofs.«124379_j76613626626565_1_alg».proof.Proof.KI.Value1
import proofs.«124379_j76613626626565_1_alg».proof.Proof.RefSide

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem

variable (m : (ℓ : Loc nD τ sig) → Buf (Elt Ideal) ℓ)

/-- After the host operations the first call's left array holds the centred `Psi`: the same operations, of the same
    argument, as the reference's. -/
theorem centred (c : Dev nD) :
    E1 m c main_v5 = Cert.ReferenceIdeal.Read.val_main_v5 (F := Ideal) (m ((c : Thread nD τ).loc main_arg1)) := by
  show StableHlo.after hostOps0 (V0 m c) (Proc.devRef .tc main_v5) = _
  after_results
  rfl

/-- The kernel's result array after the run: the second product of the first product of the centred `Psi` and `x`. -/
theorem kernel_result (c : Dev nD) :
    (dat1 (F := Ideal) (E2 m) c).arrAt 2 cfg1.N
      = outOf (tmpOf (Cert.ReferenceIdeal.Read.val_main_v5 (F := Ideal) (m ((c : Thread nD τ).loc main_arg1)))
          (m ((c : Thread nD τ).loc main_arg0))) (m ((c : Thread nD τ).loc main_arg0)) := by
  rw [final1]
  show outOf (E2 m c main_v6) (E2 m c main_arg0) = _
  rw [E2_main_v6 m c, final0]
  show outOf (tmpOf (E1 m c main_v5) (E1 m c main_arg0)) (E2 m c main_arg0) = _
  rw [E2_main_arg0 m c, E1_main_arg0 m c, centred m c]

end Cert.KernelIdeal.Hand

end
-- ==== Proof.lean ====
/-
  The certificate of the two-matmul kernel against its reference: `out = P xᵀ x` with `P` the row-centred `Psi`.
  Both programs centre `Psi` with the same host operations. The kernel then runs two matmul calls, each accumulating
  its contraction in stretches of 256 positions over a grid axis; the reference contracts twice on the host. The frames
  of the two kernel programs are the run of @main as host operations and two calls (each call's accumulator tracked
  from point to point); the reference's frame is its run. The idealization rewrote nothing. Over the extended reals
  the two results are equal entry by entry, because a finite sum may be regrouped by stretches.
-/
import proofs.«124379_j76613626626565_1_alg».proof.Defs
import proofs.«124379_j76613626626565_1_alg».proof.Proof.Gen.Kernel
import proofs.«124379_j76613626626565_1_alg».proof.Proof.Gen.KernelIdeal
import proofs.«124379_j76613626626565_1_alg».proof.Proof.Gen.ReferenceIdeal
import proofs.«124379_j76613626626565_1_alg».proof.Proof.Gen.Pre_finite_inputs
import proofs.«124379_j76613626626565_1_alg».proof.Proof.Gen.ReferenceIdeal.Run
import proofs.«124379_j76613626626565_1_alg».proof.Proof.KB.Launch
import proofs.«124379_j76613626626565_1_alg».proof.Proof.KI.Launch
import proofs.«124379_j76613626626565_1_alg».proof.Proof.Bridge

noncomputable section

namespace Cert.Proof

open Idealize.ShloMosaic Idealize.SL.Sem

/-- The word-level kernel runs to the end and leaves both arguments as launched. -/
theorem frame_k : Cert.frame_Kernel := fun m ρ _ => Cert.Kernel.Hand.frame (F := Bits) m ρ
/-- So does its idealization. -/
theorem frame_ki : Cert.frame_KernelIdeal := fun m ρ _ => Cert.KernelIdeal.Hand.frame (F := Ideal) m ρ
/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The idealization is the program's own text read over the extended reals. -/
theorem preserves : Cert.preserves_Kernel_KernelIdeal := trivial

/-- Over the extended reals both programs end with the same result array: the second product of the first product
    of the centred `Psi` and `x`, read off the kernel's two calls on one side and off the reference's two
    contractions on the other, from arguments that agree. -/
theorem algebraic : Cert.algebraic_KernelIdeal_ReferenceIdeal := by
  intro m ρ m' ρ' _ hagree
  refine ⟨fun c => Cert.Spec.outOf (Cert.Spec.tmpOf (Cert.ReferenceIdeal.Read.val_main_v5 (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))) (m ((c.tc : Thread Cert.KernelIdeal.nD Cert.KernelIdeal.τ).loc Cert.KernelIdeal.main_arg0)), ?_, ?_⟩
  · exact (θ_run Cert.KernelIdeal.defs _ _).mono
      (fun r h c => ⟨(h c).1.trans (Cert.KernelIdeal.Hand.kernel_result m c), (h c).2.1, (h c).2.2⟩)
      (Cert.KernelIdeal.Hand.run_value (F := Ideal) m ρ)
  · refine (θ_run Cert.ReferenceIdeal.defs _ _).mono (fun r h c => ⟨(h c).1.trans ?_, (h c).2.1, (h c).2.2⟩)
      (Cert.ReferenceIdeal.Value.run (F := Ideal) m' ρ')
    rw [Cert.ReferenceIdeal.Read.val_main_v7_eq, Cert.ReferenceIdeal.RefSide.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
